-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000x3 : Shape := ⟨2, ![50000, 3]⟩
abbrev S64x64 : Shape := ⟨2, ![64, 64]⟩
abbrev S64 : Shape := ⟨1, ![64]⟩
abbrev S68x64 : Shape := ⟨2, ![68, 64]⟩
abbrev S1x16 : Shape := ⟨2, ![1, 16]⟩
abbrev S16 : Shape := ⟨1, ![16]⟩
abbrev S16x4 : Shape := ⟨2, ![16, 4]⟩
abbrev S4 : Shape := ⟨1, ![4]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S68x64 : S_.BroadcastsInDim S68x64 (![] : Fin 0 → Fin S68x64.rank)
  reducesTo_S68x64_S_d0_1 : S68x64.ReducesTo [0, 1] S_
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x4 : S_.BroadcastsInDim S16x4 (![] : Fin 0 → Fin S16x4.rank)
  reducesTo_S16x4_S_d0_1 : S16x4.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_arg12 : FVec F S4 .f32) (main_v48 : IVec S_ 1) (main_v49 : FVec F S16x4 .f32) (main_v50 : FVec F S16x4 .f32) : IVec S_ 1 :=
  let main_v51 : IVec S16x4 1 := cmpf .olt main_v49 main_v50
  let main_c_19 : IVec S_ 1 := constantI S_ 1 1#1
  let main_v52 : IVec S_ 1 := (fun x v => Host.reduce IntOp.andi x v reducesTo_S16x4_S_d0_1 h_S_) main_v51 main_c_19
  let main_v53 : IVec S_ 1 := andi main_v48 main_v52
  let main_v54 : FVec F S4 .f32 := Host.absf main_arg12
  let main_cst_20 : FVec F S_ .f32 := constant S_ .f32 0x7F800000#32
  let main_v55 : FVec F S4 .f32 := broadcastInDim S4 ![] bcast_S_S4 main_cst_20
  let main_v56 : IVec S4 1 := cmpf .olt main_v54 main_v55
  let main_c_21 : IVec S_ 1 := constantI S_ 1 1#1
  let main_v57 : IVec S_ 1 := (fun x v => Host.reduce IntOp.andi x v reducesTo_S4_S_d0 h_S_) main_v56 main_c_21
  let main_v58 : IVec S_ 1 := andi main_v53 main_v57
  main_v58

def fn_part2 {F : FTy → Type} [FloatOps F] (main_arg8 : FVec F S64 .f32) (main_arg9 : FVec F S1x16 .f32) (main_arg10 : FVec F S16 .f32) (main_arg11 : FVec F S16x4 .f32) (main_arg12 : FVec F S4 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S1x16 .f32 := Host.absf main_arg9
  let main_cst_14 : FVec F S_ .f32 := constant S_ .f32 0x7F800000#32
  let main_v40 : FVec F S1x16 .f32 := broadcastInDim S1x16 ![] bcast_S_S1x16 main_cst_14
  let main_v41 : IVec S1x16 1 := cmpf .olt main_v39 main_v40
  let main_c_15 : IVec S_ 1 := constantI S_ 1 1#1
  let main_v42 : IVec S_ 1 := (fun x v => Host.reduce IntOp.andi x v reducesTo_S1x16_S_d0_1 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16x4 .f32 := Host.absf main_arg11
  let main_cst_18 : FVec F S_ .f32 := constant S_ .f32 0x7F800000#32
  let main_v50 : FVec F S16x4 .f32 := broadcastInDim S16x4 ![] bcast_S_S16x4 main_cst_18
  fn_part3 (F := F) main_arg12 main_v48 main_v49 main_v50

def fn_part1 {F : FTy → Type} [FloatOps F] (main_arg5 : FVec F S68x64 .f32) (main_arg6 : FVec F S64 .f32) (main_arg7 : FVec F S64x64 .f32) (main_arg8 : FVec F S64 .f32) (main_arg9 : FVec F S1x16 .f32) (main_arg10 : FVec F S16 .f32) (main_arg11 : FVec F S16x4 .f32) (main_arg12 : FVec F S4 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S68x64 .f32 := Host.absf main_arg5
  let main_cst_6 : FVec F S_ .f32 := constant S_ .f32 0x7F800000#32
  let main_v20 : FVec F S68x64 .f32 := broadcastInDim S68x64 ![] bcast_S_S68x64 main_cst_6
  let main_v21 : IVec S68x64 1 := cmpf .olt main_v19 main_v20
  let main_c_7 : IVec S_ 1 := constantI S_ 1 1#1
  let main_v22 : IVec S_ 1 := (fun x v => Host.reduce IntOp.andi x v reducesTo_S68x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x64 .f32) (main_arg1 : IVec S2x800000 32) (main_arg2 : FVec F S50000x3 .f32) (main_arg3 : FVec F S64x64 .f32) (main_arg4 : FVec F S64 .f32) (main_arg5 : FVec F S68x64 .f32) (main_arg6 : FVec F S64 .f32) (main_arg7 : FVec F S64x64 .f32) (main_arg8 : FVec F S64 .f32) (main_arg9 : FVec F S1x16 .f32) (main_arg10 : FVec F S16 .f32) (main_arg11 : FVec F S16x4 .f32) (main_arg12 : FVec F S4 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x3 .f32 := Host.absf main_arg2
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_v13 main_v16
-- ==== Kernel.lean ====
abbrev S50000x64 : Shape := ⟨2, ![50000, 64]⟩
abbrev S2x800000 : Shape := ⟨2, ![2, 800000]⟩
abbrev S50000x3 : Shape := ⟨2, ![50000, 3]⟩
abbrev S64x64 : Shape := ⟨2, ![64, 64]⟩
abbrev S64 : Shape := ⟨1, ![64]⟩
abbrev S68x64 : Shape := ⟨2, ![68, 64]⟩
abbrev S1x16 : Shape := ⟨2, ![1, 16]⟩
abbrev S16 : Shape := ⟨1, ![16]⟩
abbrev S16x4 : Shape := ⟨2, ![16, 4]⟩
abbrev S4 : Shape := ⟨1, ![4]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x64 : Shape := ⟨2, ![800000, 64]⟩
abbrev S2816x64 : Shape := ⟨2, ![2816, 64]⟩
abbrev S802816x64 : Shape := ⟨2, ![802816, 64]⟩
abbrev S2816 : Shape := ⟨1, ![2816]⟩
abbrev S802816 : Shape := ⟨1, ![802816]⟩
abbrev S802816x1 : Shape := ⟨2, ![802816, 1]⟩
abbrev S4x64 : Shape := ⟨2, ![4, 64]⟩
abbrev S1x4 : Shape := ⟨2, ![1, 4]⟩
abbrev S1x64 : Shape := ⟨2, ![1, 64]⟩
abbrev S4096x64 : Shape := ⟨2, ![4096, 64]⟩
abbrev S4096x1 : Shape := ⟨2, ![4096, 1]⟩
abbrev S4096x16 : Shape := ⟨2, ![4096, 16]⟩
abbrev S4096x4 : Shape := ⟨2, ![4096, 4]⟩
abbrev S5000x64 : Shape := ⟨2, ![5000, 64]⟩

abbrev nBuf : Space → Nat
  | .hbm => 72
  | .vmem => 23
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000x3, .f32⟩
  | .hbm, ⟨3, _⟩ => ⟨S64x64, .f32⟩
  | .hbm, ⟨4, _⟩ => ⟨S64, .f32⟩
  | .hbm, ⟨5, _⟩ => ⟨S68x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x16, .f32⟩
  | .hbm, ⟨10, _⟩ => ⟨S16, .f32⟩
  | .hbm, ⟨11, _⟩ => ⟨S16x4, .f32⟩
  | .hbm, ⟨12, _⟩ => ⟨S4, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x3, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x3, .f32⟩
  | .hbm, ⟨35, _⟩ => ⟨S800000x3, .f32⟩
  | .hbm, ⟨36, _⟩ => ⟨S800000x3, .f32⟩
  | .hbm, ⟨37, _⟩ => ⟨S_, .f32⟩
  | .hbm, ⟨38, _⟩ => ⟨S800000, .f32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x64, .f32⟩
  | .hbm, ⟨49, _⟩ => ⟨S_, .f32⟩
  | .hbm, ⟨50, _⟩ => ⟨S2816x64, .f32⟩
  | .hbm, ⟨51, _⟩ => ⟨S802816x64, .f32⟩
  | .hbm, ⟨52, _⟩ => ⟨S_, .f32⟩
  | .hbm, ⟨53, _⟩ => ⟨S2816, .f32⟩
  | .hbm, ⟨54, _⟩ => ⟨S802816, .f32⟩
  | .hbm, ⟨55, _⟩ => ⟨S_, .i32⟩
  | .hbm, ⟨56, _⟩ => ⟨S2816, .i32⟩
  | .hbm, ⟨57, _⟩ => ⟨S802816, .i32⟩
  | .hbm, ⟨58, _⟩ => ⟨S802816x1, .f32⟩
  | .hbm, ⟨59, _⟩ => ⟨S64x64, .f32⟩
  | .hbm, ⟨60, _⟩ => ⟨S4x64, .f32⟩
  | .hbm, ⟨61, _⟩ => ⟨S1x16, .f32⟩
  | .hbm, ⟨62, _⟩ => ⟨S1x4, .f32⟩
  | .hbm, ⟨63, _⟩ => ⟨S1x64, .f32⟩
  | .hbm, ⟨64, _⟩ => ⟨S1x64, .f32⟩
  | .hbm, ⟨65, _⟩ => ⟨S1x64, .f32⟩
  | .hbm, ⟨66, _⟩ => ⟨S802816x64, .f32⟩
  | .hbm, ⟨67, _⟩ => ⟨S_, .f32⟩
  | .hbm, ⟨68, _⟩ => ⟨S50000x64, .f32⟩
  | .hbm, ⟨69, _⟩ => ⟨S802816x1, .i32⟩
  | .hbm, ⟨70, _⟩ => ⟨S50000x64, .f32⟩
  | .hbm, ⟨71, _⟩ => ⟨S50000x64, .f32⟩
  | .local _ .vmem, ⟨0, _⟩ => ⟨S4096x64, .f32⟩
  | .local _ .vmem, ⟨1, _⟩ => ⟨S4096x64, .f32⟩
  | .local _ .vmem, ⟨2, _⟩ => ⟨S4096x1, .f32⟩
  | .local _ .vmem, ⟨3, _⟩ => ⟨S4096x1, .f32⟩
  | .local _ .vmem, ⟨4, _⟩ => ⟨S1x16, .f32⟩
  | .local _ .vmem, ⟨5, _⟩ => ⟨S1x16, .f32⟩
  | .local _ .vmem, ⟨6, _⟩ => ⟨S16x4, .f32⟩
  | .local _ .vmem, ⟨7, _⟩ => ⟨S1x4, .f32⟩
  | .local _ .vmem, ⟨8, _⟩ => ⟨S64x64, .f32⟩
  | .local _ .vmem, ⟨9, _⟩ => ⟨S4x64, .f32⟩
  | .local _ .vmem, ⟨10, _⟩ => ⟨S1x64, .f32⟩
  | .local _ .vmem, ⟨11, _⟩ => ⟨S64x64, .f32⟩
  | .local _ .vmem, ⟨12, _⟩ => ⟨S1x64, .f32⟩
  | .local _ .vmem, ⟨13, _⟩ => ⟨S4096x64, .f32⟩
  | .local _ .vmem, ⟨14, _⟩ => ⟨S4096x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S64x64, .f32⟩
  | .local _ .vmem, ⟨20, _⟩ => ⟨S1x64, .f32⟩
  | .local _ .vmem, ⟨21, _⟩ => ⟨S5000x64, .f32⟩
  | .local _ .vmem, ⟨22, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call0_v0 : Ref sig .tc := ⟨.hbm, 36, rfl⟩
abbrev main_call0_cst : Ref sig .tc := ⟨.hbm, 37, rfl⟩
abbrev main_call0_v1 : Ref sig .tc := ⟨.hbm, 38, rfl⟩
abbrev main_v19 : Ref sig .tc := ⟨.hbm, 39, rfl⟩
abbrev main_c_3 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst : Ref sig .tc := ⟨.hbm, 49, rfl⟩
abbrev main_v27 : Ref sig .tc := ⟨.hbm, 50, rfl⟩
abbrev main_v28 : Ref sig .tc := ⟨.hbm, 51, rfl⟩
abbrev main_cst_5 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg4_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem4_1 : DmaSem sig := 22

abbrev nD : Nat := 1
abbrev τ : Topo := Topo.v7x

variable {F : FTy → Type} [FloatOps F]

abbrev grid0 : Pipeline.Grid := ⟨1, ![196], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4096x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  bcast_S_S2816x64 : S_.BroadcastsInDim S2816x64 (![] : Fin 0 → Fin S2816x64.rank)
  concatenates_S800000x64_S2816x64_S802816x64_d0 : Shape.Concatenates [S800000x64, S2816x64] S802816x64 0
  bcast_S_S2816 : S_.BroadcastsInDim S2816 (![] : Fin 0 → Fin S2816.rank)
  concatenates_S800000_S2816_S802816_d0 : Shape.Concatenates [S800000, S2816] S802816 0
  shapeCasts_S802816_S802816x1 : S802816.ShapeCasts S802816x1
  slices_S68x64_S64x64_0_0 : S68x64.Slices ![0, 0] S64x64
  slices_S68x64_S4x64_64_0 : S68x64.Slices ![64, 0] S4x64
  shapeCasts_S16_S1x16 : S16.ShapeCasts S1x16
  shapeCasts_S4_S1x4 : S4.ShapeCasts S1x4
  shapeCasts_S64_S1x64 : S64.ShapeCasts S1x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S16x4_S16x4_0_0 : ∀ a, (![0, 0] : Fin 2 → Nat) a + S16x4.size a ≤ S16x4.size a
  h_S16x4 : 0 < S16x4.numel
  bitsLt_bf16_f32 : FTy.bits .bf16 < FTy.bits .f32
  inb_S1x4_S1x4_0_0 : ∀ a, (![0, 0] : Fin 2 → Nat) a + S1x4.size a ≤ S1x4.size a
  h_S1x4 : 0 < S1x4.numel
  shapeCasts_S1x4_S1x4 : S1x4.ShapeCasts S1x4
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S4x64_S4x64_0_0 : ∀ a, (![0, 0] : Fin 2 → Nat) a + S4x64.size a ≤ S4x64.size a
  h_S4x64 : 0 < S4x64.numel
  shapeCasts_S4x64_S4x64 : S4x64.ShapeCasts S4x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S4096x1_S4096x16 : S4096x1.Broadcasts S4096x16
  broadcasts_S1x16_S4096x16 : S1x16.Broadcasts S4096x16
  broadcasts_S1x4_S4096x4 : S1x4.Broadcasts S4096x4
  broadcasts_S1x64_S4096x64 : S1x64.Broadcasts S4096x64
  natLt_1_32 : 1 < 32
  broadcasts_S4096x1_S4096x64 : S4096x1.Broadcasts S4096x64
  bcast_S_S50000x64 : S_.BroadcastsInDim S50000x64 (![] : Fin 0 → Fin S50000x64.rank)
  bcast_S802816_S802816x1_0 : S802816.BroadcastsInDim S802816x1 (![0] : Fin 1 → Fin S802816x1.rank)
  inb_S5000x64_S5000x64_0_0 : ∀ a, (![0, 0] : Fin 2 → Nat) a + S5000x64.size a ≤ S5000x64.size a
  h_S5000x64 : 0 < S5000x64.numel
  broadcasts_S1x64_S5000x64 : S1x64.Broadcasts S5000x64
  shapeCasts_S5000x64_S5000x64 : S5000x64.ShapeCasts S5000x64
  gather_S50000x3_S800000x1_S800000x3_1_0_n_n_0_1_13_wf : GatherDims.WF S50000x3 S800000x1 S800000x3 [1] [0] [] [0] [] 1 ![1, 3]
  gather_S50000x64_S800000x1_S800000x64_1_0_n_n_0_1_164_wf : GatherDims.WF S50000x64 S800000x1 S800000x64 [1] [0] [] [0] [] 1 ![1, 64]
  dot_S4096x16_S16x4_S4096x4_1_0_0_1_n_n_wf : DotDims.WF S4096x16 S16x4 S4096x4 [1] [0] [0] [1] [] []
  dot_S4096x64_S64x64_S4096x64_1_0_0_1_n_n_wf : DotDims.WF S4096x64 S64x64 S4096x64 [1] [0] [0] [1] [] []
  dot_S4096x4_S4x64_S4096x64_1_0_0_1_n_n_wf : DotDims.WF S4096x4 S4x64 S4096x64 [1] [0] [0] [1] [] []
  scatter_S50000x64_S802816x1_S802816x64_1_0_0_1_wf : ScatterDims.WF S50000x64 S802816x1 S802816x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S802816x64.size a
  hwx0_0 : ∀ i : grid0.Coords, EltTy.bits .f32 = 32 ∨ (Rect.block (s := S802816x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S802816x1.size a
  hwx0_1 : ∀ i : grid0.Coords, EltTy.bits .f32 = 32 ∨ (Rect.block (s := S802816x1) S4096x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x4.size a ≤ S16x4.size a
  hwx0_4 : ∀ i : grid0.Coords, EltTy.bits .f32 = 32 ∨ (Rect.block (s := S16x4) S16x4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4.size a ≤ S1x4.size a
  hwx0_5 : ∀ i : grid0.Coords, EltTy.bits .f32 = 32 ∨ (Rect.block (s := S1x4) S1x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x64.size a ≤ S4x64.size a
  hwx0_7 : ∀ i : grid0.Coords, EltTy.bits .f32 = 32 ∨ (Rect.block (s := S4x64) S4x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4096x64.size a ≤ S802816x64.size a
  hwx0_11 : ∀ i : grid0.Coords, EltTy.bits .f32 = 32 ∨ (Rect.block (s := S802816x64) S4096x64.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4096x16_S16x4_S4096x4_1_0_0_1_n_n : DotDims S4096x16 S16x4 S4096x4 where
  lhsContracting := [1]
  rhsContracting := [0]
  lhsNonContracting := [0]
  rhsNonContracting := [1]
  lhsBatch := []
  rhsBatch := []
  wf := dot_S4096x16_S16x4_S4096x4_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x4_S4x64_S4096x64_1_0_0_1_n_n : DotDims S4096x4 S4x64 S4096x64 where
  lhsContracting := [1]
  rhsContracting := [0]
  lhsNonContracting := [0]
  rhsNonContracting := [1]
  lhsBatch := []
  rhsBatch := []
  wf := dot_S4096x4_S4x64_S4096x64_1_0_0_1_n_n_wf
def scatter_S50000x64_S802816x1_S802816x64_1_0_0_1 : ScatterDims S50000x64 S802816x1 S802816x64 where
  updateWindowDims := [1]
  insertedWindowDims := [0]
  scatterDimsToOperandDims := [0]
  indexVectorDim := 1
  wf := scatter_S50000x64_S802816x1_S802816x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v28) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg9) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg11) S16x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S1x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S4x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v38) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v39) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v41) S4096x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000x3 : Shape := ⟨2, ![50000, 3]⟩
abbrev S64x64 : Shape := ⟨2, ![64, 64]⟩
abbrev S64 : Shape := ⟨1, ![64]⟩
abbrev S68x64 : Shape := ⟨2, ![68, 64]⟩
abbrev S1x16 : Shape := ⟨2, ![1, 16]⟩
abbrev S16 : Shape := ⟨1, ![16]⟩
abbrev S16x4 : Shape := ⟨2, ![16, 4]⟩
abbrev S4 : Shape := ⟨1, ![4]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x16 : Shape := ⟨2, ![800000, 16]⟩
abbrev S800000x4 : Shape := ⟨2, ![800000, 4]⟩
abbrev S1x4 : Shape := ⟨2, ![1, 4]⟩
abbrev S800000x64 : Shape := ⟨2, ![800000, 64]⟩
abbrev S800000x68 : Shape := ⟨2, ![800000, 68]⟩
abbrev S1x64 : Shape := ⟨2, ![1, 64]⟩

abbrev nBuf : Space → Nat
  | .hbm => 134
  | .vmem => 0
  | .smem => 0
  | _ => 0

abbrev hbmTy0_0 (i : Nat) : BufTy := match i % 128 with
  | 0 => ⟨S50000x64, .f32⟩
  | 1 => ⟨S2x800000, .i32⟩
  | 2 => ⟨S50000x3, .f32⟩
  | 3 => ⟨S64x64, .f32⟩
  | 4 => ⟨S64, .f32⟩
  | 5 => ⟨S68x64, .f32⟩
  | 6 => ⟨S64, .f32⟩
  | 7 => ⟨S64x64, .f32⟩
  | 8 => ⟨S64, .f32⟩
  | 9 => ⟨S1x16, .f32⟩
  | 10 => ⟨S16, .f32⟩
  | 11 => ⟨S16x4, .f32⟩
  | 12 => ⟨S4, .f32⟩
  | 13 => ⟨S1x800000, .i32⟩
  | 14 => ⟨S800000, .i32⟩
  | 15 => ⟨S1x800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x3, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x3, .f32⟩
  | 35 => ⟨S800000x3, .f32⟩
  | 36 => ⟨S800000x3, .f32⟩
  | 37 => ⟨S_, .f32⟩
  | 38 => ⟨S800000, .f32⟩
  | 39 => ⟨S800000x1, .f32⟩
  | 40 => ⟨S800000x1, .f32⟩
  | 41 => ⟨S_, .f32⟩
  | 42 => ⟨S800000x1, .f32⟩
  | 43 => ⟨S800000x1, .i1⟩
  | 44 => ⟨S800000x1, .f32⟩
  | 45 => ⟨S800000x16, .f32⟩
  | 46 => ⟨S1x16, .f32⟩
  | 47 => ⟨S800000x16, .f32⟩
  | 48 => ⟨S800000x16, .f32⟩
  | 49 => ⟨S800000x16, .f32⟩
  | 50 => ⟨S800000x16, .f32⟩
  | 51 => ⟨S_, .f32⟩
  | 52 => ⟨S800000x16, .f32⟩
  | 53 => ⟨S800000x16, .f32⟩
  | 54 => ⟨S_, .f32⟩
  | 55 => ⟨S800000x16, .f32⟩
  | 56 => ⟨S800000x16, .f32⟩
  | 57 => ⟨S800000x16, .f32⟩
  | 58 => ⟨S800000x4, .f32⟩
  | 59 => ⟨S1x4, .f32⟩
  | 60 => ⟨S800000x4, .f32⟩
  | 61 => ⟨S800000x4, .f32⟩
  | 62 => ⟨S800000x4, .f32⟩
  | 63 => ⟨S800000x4, .f32⟩
  | 64 => ⟨S_, .f32⟩
  | 65 => ⟨S800000x4, .f32⟩
  | 66 => ⟨S800000x4, .f32⟩
  | 67 => ⟨S_, .f32⟩
  | 68 => ⟨S800000x4, .f32⟩
  | 69 => ⟨S800000x4, .f32⟩
  | 70 => ⟨S800000x4, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x64, .f32⟩
  | 80 => ⟨S800000x68, .f32⟩
  | 81 => ⟨S800000x64, .f32⟩
  | 82 => ⟨S1x64, .f32⟩
  | 83 => ⟨S800000x64, .f32⟩
  | 84 => ⟨S800000x64, .f32⟩
  | 85 => ⟨S800000x64, .f32⟩
  | 86 => ⟨S800000x64, .f32⟩
  | 87 => ⟨S_, .f32⟩
  | 88 => ⟨S800000x64, .f32⟩
  | 89 => ⟨S800000x64, .f32⟩
  | 90 => ⟨S_, .f32⟩
  | 91 => ⟨S800000x64, .f32⟩
  | 92 => ⟨S800000x64, .f32⟩
  | 93 => ⟨S800000x64, .f32⟩
  | 94 => ⟨S800000x64, .f32⟩
  | 95 => ⟨S1x64, .f32⟩
  | 96 => ⟨S800000x64, .f32⟩
  | 97 => ⟨S800000x64, .f32⟩
  | 98 => ⟨S800000x64, .f32⟩
  | 99 => ⟨S800000x64, .f32⟩
  | 100 => ⟨S_, .f32⟩
  | 101 => ⟨S800000x64, .f32⟩
  | 102 => ⟨S800000x64, .f32⟩
  | 103 => ⟨S_, .f32⟩
  | 104 => ⟨S800000x64, .f32⟩
  | 105 => ⟨S800000x64, .f32⟩
  | 106 => ⟨S800000x64, .f32⟩
  | 107 => ⟨S_, .f32⟩
  | 108 => ⟨S800000x1, .f32⟩
  | 109 => ⟨S800000x1, .f32⟩
  | 110 => ⟨S800000x1, .f32⟩
  | 111 => ⟨S_, .f32⟩
  | 112 => ⟨S800000x1, .f32⟩
  | 113 => ⟨S800000x1, .f32⟩
  | 114 => ⟨S_, .f32⟩
  | 115 => ⟨S_, .f32⟩
  | 116 => ⟨S_, .f32⟩
  | 117 => ⟨S800000x1, .f32⟩
  | 118 => ⟨S800000x1, .f32⟩
  | 119 => ⟨S_, .f32⟩
  | 120 => ⟨S800000x1, .f32⟩
  | 121 => ⟨S800000x1, .f32⟩
  | 122 => ⟨S800000x1, .f32⟩
  | 123 => ⟨S800000x64, .f32⟩
  | 124 => ⟨S800000x64, .f32⟩
  | 125 => ⟨S_, .f32⟩
  | 126 => ⟨S50000x64, .f32⟩
  | 127 => ⟨S800000x1, .i32⟩
  | _ => ⟨S50000x64, .f32⟩

abbrev hbmTy0_1 (i : Nat) : BufTy := match i % 128 with
  | 0 => ⟨S50000x64, .f32⟩
  | 1 => ⟨S50000x64, .f32⟩
  | 2 => ⟨S1x64, .f32⟩
  | 3 => ⟨S50000x64, .f32⟩
  | 4 => ⟨S50000x64, .f32⟩
  | 5 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call0_v0 : Ref sig .tc := ⟨.hbm, 36, rfl⟩
abbrev main_call0_cst : Ref sig .tc := ⟨.hbm, 37, rfl⟩
abbrev main_call0_v1 : Ref sig .tc := ⟨.hbm, 38, rfl⟩
abbrev main_call0_v2 : Ref sig .tc := ⟨.hbm, 39, rfl⟩
abbrev main_v19 : Ref sig .tc := ⟨.hbm, 40, rfl⟩
abbrev main_cst : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_call2_v0 : Ref sig .tc := ⟨.hbm, 62, rfl⟩
abbrev main_call2_v1 : Ref sig .tc := ⟨.hbm, 63, rfl⟩
abbrev main_call2_cst : Ref sig .tc := ⟨.hbm, 64, rfl⟩
abbrev main_call2_v2 : Ref sig .tc := ⟨.hbm, 65, rfl⟩
abbrev main_call2_v3 : Ref sig .tc := ⟨.hbm, 66, rfl⟩
abbrev main_call2_cst_0 : Ref sig .tc := ⟨.hbm, 67, rfl⟩
abbrev main_call2_v4 : Ref sig .tc := ⟨.hbm, 68, rfl⟩
abbrev main_call2_v5 : Ref sig .tc := ⟨.hbm, 69, rfl⟩
abbrev main_v32 : Ref sig .tc := ⟨.hbm, 70, rfl⟩
abbrev main_c_3 : Ref sig .tc := ⟨.hbm, 71, rfl⟩
abbrev main_v33 : Ref sig .tc := ⟨.hbm, 72, rfl⟩
abbrev main_v34 : Ref sig .tc := ⟨.hbm, 73, rfl⟩
abbrev main_c_4 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_call3_v0 : Ref sig .tc := ⟨.hbm, 85, rfl⟩
abbrev main_call3_v1 : Ref sig .tc := ⟨.hbm, 86, rfl⟩
abbrev main_call3_cst : Ref sig .tc := ⟨.hbm, 87, rfl⟩
abbrev main_call3_v2 : Ref sig .tc := ⟨.hbm, 88, rfl⟩
abbrev main_call3_v3 : Ref sig .tc := ⟨.hbm, 89, rfl⟩
abbrev main_call3_cst_0 : Ref sig .tc := ⟨.hbm, 90, rfl⟩
abbrev main_call3_v4 : Ref sig .tc := ⟨.hbm, 91, rfl⟩
abbrev main_call3_v5 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_call4_v0 : Ref sig .tc := ⟨.hbm, 98, rfl⟩
abbrev main_call4_v1 : Ref sig .tc := ⟨.hbm, 99, rfl⟩
abbrev main_call4_cst : Ref sig .tc := ⟨.hbm, 100, rfl⟩
abbrev main_call4_v2 : Ref sig .tc := ⟨.hbm, 101, rfl⟩
abbrev main_call4_v3 : Ref sig .tc := ⟨.hbm, 102, rfl⟩
abbrev main_call4_cst_0 : Ref sig .tc := ⟨.hbm, 103, rfl⟩
abbrev main_call4_v4 : Ref sig .tc := ⟨.hbm, 104, rfl⟩
abbrev main_call4_v5 : Ref sig .tc := ⟨.hbm, 105, rfl⟩
abbrev main_v50 : Ref sig .tc := ⟨.hbm, 106, rfl⟩
abbrev main_cst_5 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_cst_6 : Ref sig .tc := ⟨.hbm, 111, rfl⟩
abbrev main_v54 : Ref sig .tc := ⟨.hbm, 112, rfl⟩
abbrev main_v55 : Ref sig .tc := ⟨.hbm, 113, rfl⟩
abbrev main_cst_7 : Ref sig .tc := ⟨.hbm, 114, rfl⟩
abbrev main_cst_8 : Ref sig .tc := ⟨.hbm, 115, rfl⟩
abbrev main_call5_v0 : Ref sig .tc := ⟨.hbm, 116, rfl⟩
abbrev main_call5_v1 : Ref sig .tc := ⟨.hbm, 117, rfl⟩
abbrev main_call5_v2 : Ref sig .tc := ⟨.hbm, 118, rfl⟩
abbrev main_call5_v3 : Ref sig .tc := ⟨.hbm, 119, rfl⟩
abbrev main_call5_v4 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_cst_9 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  bcast_S_S800000x1 : S_.BroadcastsInDim S800000x1 (![] : Fin 0 → Fin S800000x1.rank)
  bcast_S16_S1x16_1 : S16.BroadcastsInDim S1x16 (![1] : Fin 1 → Fin S1x16.rank)
  bcast_S1x16_S800000x16_0_1 : S1x16.BroadcastsInDim S800000x16 (![0, 1] : Fin 2 → Fin S800000x16.rank)
  bcast_S_S800000x16 : S_.BroadcastsInDim S800000x16 (![] : Fin 0 → Fin S800000x16.rank)
  bcast_S4_S1x4_1 : S4.BroadcastsInDim S1x4 (![1] : Fin 1 → Fin S1x4.rank)
  bcast_S1x4_S800000x4_0_1 : S1x4.BroadcastsInDim S800000x4 (![0, 1] : Fin 2 → Fin S800000x4.rank)
  bcast_S_S800000x4 : S_.BroadcastsInDim S800000x4 (![] : Fin 0 → Fin S800000x4.rank)
  concatenates_S800000x64_S800000x4_S800000x68_d1 : Shape.Concatenates [S800000x64, S800000x4] S800000x68 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S1x64_S50000x64_0_1 : S1x64.BroadcastsInDim S50000x64 (![0, 1] : Fin 2 → Fin S50000x64.rank)
  gather_S50000x3_S800000x1_S800000x3_1_0_n_n_0_1_13_wf : GatherDims.WF S50000x3 S800000x1 S800000x3 [1] [0] [] [0] [] 1 ![1, 3]
  dot_S800000x1_S1x16_S800000x16_1_0_0_1_n_n_wf : DotDims.WF S800000x1 S1x16 S800000x16 [1] [0] [0] [1] [] []
  dot_S800000x16_S16x4_S800000x4_1_0_0_1_n_n_wf : DotDims.WF S800000x16 S16x4 S800000x4 [1] [0] [0] [1] [] []
  gather_S50000x64_S800000x1_S800000x64_1_0_n_n_0_1_164_wf : GatherDims.WF S50000x64 S800000x1 S800000x64 [1] [0] [] [0] [] 1 ![1, 64]
  dot_S800000x68_S68x64_S800000x64_1_0_0_1_n_n_wf : DotDims.WF S800000x68 S68x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S800000x1_S1x16_S800000x16_1_0_0_1_n_n : DotDims S800000x1 S1x16 S800000x16 where
  lhsContracting := [1]
  rhsContracting := [0]
  lhsNonContracting := [0]
  rhsNonContracting := [1]
  lhsBatch := []
  rhsBatch := []
  wf := dot_S800000x1_S1x16_S800000x16_1_0_0_1_n_n_wf
def dot_S800000x16_S16x4_S800000x4_1_0_0_1_n_n : DotDims S800000x16 S16x4 S800000x4 where
  lhsContracting := [1]
  rhsContracting := [0]
  lhsNonContracting := [0]
  rhsNonContracting := [1]
  lhsBatch := []
  rhsBatch := []
  wf := dot_S800000x16_S16x4_S800000x4_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x68_S68x64_S800000x64_1_0_0_1_n_n : DotDims S800000x68 S68x64 S800000x64 where
  lhsContracting := [1]
  rhsContracting := [0]
  lhsNonContracting := [0]
  rhsNonContracting := [1]
  lhsBatch := []
  rhsBatch := []
  wf := dot_S800000x68_S68x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.LibCoe.lean ====
/-
  The extended-real operations of the ideal float instance, read on COERCED REALS.

  Every value of the ideal instance is an extended real. Where an argument is (the coercion of) a real number
  and stays away from an operation's corner (a zero divisor, a non-positive argument of the logarithm or of
  the reciprocal square root), the result is again the coercion of a real: the real operation's value. Each
  lemma below is such an equation, its right side a coerced real, so that a value claim over finite inputs can
  be pushed, operation by operation, from the extended reals down to a statement about real numbers.

  The bit patterns that denote the constants are unfolded here, once.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Sqrt
import Mathlib.Analysis.SpecialFunctions.Log.Basic
import Mathlib.Tactic.NormNum

noncomputable section

namespace Cert.LibCoe

open Idealize.ShloMosaic
open Finset BigOperators

/-! ### Field operations -/

/-- The sum of two coerced reals is the coercion of their sum. -/
theorem add_coe (a b : ℝ) : (a : EReal) + (b : EReal) = ((a + b : ℝ) : EReal) :=
  (EReal.coe_add a b).symm

/-- The difference of two coerced reals is the coercion of their difference. -/
theorem sub_coe (a b : ℝ) : (a : EReal) - (b : EReal) = ((a - b : ℝ) : EReal) :=
  (EReal.coe_sub a b).symm

/-- The product of two coerced reals is the coercion of their product. -/
theorem mul_coe (a b : ℝ) : (a : EReal) * (b : EReal) = ((a * b : ℝ) : EReal) :=
  (EReal.coe_mul a b).symm

/-- The negation of a coerced real is the coercion of its negation. -/
theorem neg_coe (a : ℝ) : -(a : EReal) = ((-a : ℝ) : EReal) :=
  (EReal.coe_neg a).symm

/-- Division of a coerced real by a coerced NON-ZERO real is the coercion of the real quotient: off zero the
    ideal division is the product with the inverse, and the inverse of a coerced real is the coerced inverse. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The maximum of two coerced reals is the coercion of their maximum (the coercion is monotone). -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The minimum of two coerced reals is the coercion of their minimum. -/
theorem min_coe (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

/-- A finite sum of coerced reals is the coercion of the real sum. -/
theorem sum_coe {ι : Type*} (s : Finset ι) (f : ι → ℝ) :
    ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-! ### Transcendental operations -/

/-- The reciprocal square root of a coerced POSITIVE real is the coerced `(√r)⁻¹`. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

/-- The exponential of a coerced real is the coerced real exponential. -/
theorem exp_coe (r : ℝ) : Ideal.exp (r : EReal) = ((Real.exp r : ℝ) : EReal) := rfl

/-- The logarithm of a coerced POSITIVE real is the coerced real logarithm. -/
theorem log_coe_pos {r : ℝ} (hr : 0 < r) :
    Ideal.log (r : EReal) = ((Real.log r : ℝ) : EReal) := by
  rw [Ideal.log_coe, if_neg (not_le.mpr hr)]

/-! ### Comparison -/

/-- The ordered comparison "greater than" of two coerced reals is the bit of the real comparison. -/
theorem cmp_ogt_coe (a b : ℝ) :
    Ideal.cmp .ogt (a : EReal) (b : EReal) = BitVec.ofBool (decide (b < a)) := by
  simp only [Ideal.cmp, EReal.coe_lt_coe_iff]

/-- A coerced positive real is "greater than" the coerced zero: the comparison's bit is set. -/
theorem cmp_ogt_coe_zero_of_pos {a : ℝ} (ha : 0 < a) :
    Ideal.cmp .ogt (a : EReal) ((0 : ℝ) : EReal) = 1#1 := by
  rw [cmp_ogt_coe, decide_eq_true ha]; rfl

/-- A coerced non-positive real is not "greater than" the coerced zero: the comparison's bit is clear. -/
theorem cmp_ogt_coe_zero_of_nonpos {a : ℝ} (ha : a ≤ 0) :
    Ideal.cmp .ogt (a : EReal) ((0 : ℝ) : EReal) = 0#1 := by
  rw [cmp_ogt_coe, decide_eq_false (not_lt.mpr ha)]; rfl

/-! ### Constants: what the single-precision patterns denote -/

/-- The pattern of `+0.0` denotes the real `0`. -/
theorem ofBits_zero : Ideal.ofBits .f32 0x00000000#32 = ((0 : ℝ) : EReal) := by
  rw [Ideal.ofBits_zero_f32, EReal.coe_zero]

/-- The pattern of `1.0` (exponent field 127, fraction 0) denotes the real `1`. -/
theorem ofBits_one : Ideal.ofBits .f32 0x3F800000#32 = ((1 : ℝ) : EReal) := by
  simp [Ideal.ofBits, Ideal.ieee, -EReal.coe_mul]; norm_num

/-- The pattern of `10000.0` (exponent field 140, fraction `0x1C4000`): `(2²³ + 1851392) · 2⁻¹⁰ = 10000`. -/
theorem ofBits_10000 : Ideal.ofBits .f32 0x461C4000#32 = ((10000 : ℝ) : EReal) := by
  simp [Ideal.ofBits, Ideal.ieee, -EReal.coe_mul]; norm_num

/-- The single-precision number nearest `10⁻⁵`, exactly: exponent field 110, fraction `0x27C5AC`, that is
    `(2²³ + 2606508) · 2⁻⁴⁰ = 10995116 / 2⁴⁰`. -/
def epsR : ℝ := 10995116 / 1099511627776

/-- That number is positive. -/
theorem epsR_pos : 0 < epsR := by unfold epsR; norm_num

/-- The pattern `0x3727C5AC` denotes `epsR`. -/
theorem ofBits_eps : Ideal.ofBits .f32 0x3727C5AC#32 = ((epsR : ℝ) : EReal) := by
  unfold epsR
  simp [Ideal.ofBits, Ideal.ieee, -EReal.coe_mul]; norm_num

/-- The pattern of `-∞` (sign set, exponent field all ones, fraction 0) denotes `⊥`. -/
theorem ofBits_neg_inf : Ideal.ofBits .f32 0xFF800000#32 = (⊥ : EReal) := by
  simp [Ideal.ofBits, Ideal.ieee]

end Cert.LibCoe

end
-- ==== Proof.Spec.lean ====
/-
  One edge of the message-passing layer, as arithmetic on the extended reals.

  An edge carries the feature row `xs` of its source node (64 numbers) and the distance `t` between its two
  end points. From the distance a two-layer radial network makes four numbers; these and the feature row go
  through a two-layer edge network (the first layer's 68-row weight matrix split into the 64 rows that meet
  the features and the 4 rows that meet the radial numbers); the result is scaled by a smooth cutoff of the
  distance that is zero from distance ten on. Every activation is `z ↦ z · logistic z`.

  Nothing here needs the inputs to be finite: the identities used are associativity and commutativity of
  the extended reals' sum, and `x · 0 = 0`, which hold at the infinities too.
-/
import Idealize.ShloMosaic.PureOps.Ideal
import Idealize.ShloMosaic.PureOps.Ideal.Laws
import Idealize.ShloMosaic.Lib.ValueIdx
import Mathlib.Algebra.BigOperators.Fin
import proofs.«109811_j72164040507424_1_alg».proof.Proof.LibCoe

noncomputable section

namespace Cert.EdgeNet

open Idealize.ShloMosaic
open Finset BigOperators

/-- The activation `z · logistic z`. -/
def silu (z : EReal) : EReal := z * Ideal.logistic z

/-- The cutoff radius, as the single-precision pattern of `10.0` denotes it. -/
def ten : EReal := Ideal.ofBits .f32 0x41200000#32

/-- The distance given to a padding row: the single-precision pattern of `10⁹`. -/
def far : EReal := Ideal.ofBits .f32 0x4E6E6B28#32

/-- One inside the cutoff radius, zero from it on. -/
def mask (t : EReal) : EReal := if t < ten then 1 else 0

/-- The smooth cutoff `clip (1 - (t/10)², 0, 1)`, times the mask. -/
def cut (t : EReal) : EReal := min 1 (max 0 (1 - Ideal.div t ten * Ideal.div t ten)) * mask t

/-- The weights of the radial network and of the edge network, entry by entry. -/
structure Params where
  wr1 : Fin 16 → EReal
  br1 : Fin 16 → EReal
  wr2 : Fin 16 → Fin 4 → EReal
  br2 : Fin 4 → EReal
  w1a : Fin 64 → Fin 64 → EReal
  w1b : Fin 4 → Fin 64 → EReal
  b1 : Fin 64 → EReal
  w2 : Fin 64 → Fin 64 → EReal
  b2 : Fin 64 → EReal

/-- The radial network's hidden layer at distance `t`. -/
def r1 (P : Params) (t : EReal) (j : Fin 16) : EReal := silu (t * P.wr1 j + P.br1 j)

/-- The radial network's four outputs at distance `t`. -/
def rad (P : Params) (t : EReal) (k : Fin 4) : EReal := silu ((∑ j : Fin 16, r1 P t j * P.wr2 j k) + P.br2 k)

/-- The edge network's hidden layer: the feature row against the first 64 weight rows, the radial numbers
    against the last 4. -/
def h1 (P : Params) (xs : Fin 64 → EReal) (t : EReal) (f : Fin 64) : EReal :=
  silu (((∑ k : Fin 64, xs k * P.w1a k f) + (∑ k : Fin 4, rad P t k * P.w1b k f)) + P.b1 f)

/-- The edge's message: the edge network's output, scaled by the cutoff. -/
def ef (P : Params) (xs : Fin 64 → EReal) (t : EReal) (f : Fin 64) : EReal :=
  silu ((∑ k : Fin 64, h1 P xs t k * P.w2 k f) + P.b2 f) * cut t

/-! ### The two literals that are compared -/

theorem ten_eq : ten = ((10 : ℝ) : EReal) := by
  unfold ten
  simp [Ideal.ofBits, Ideal.ieee, -EReal.coe_mul]; norm_num

theorem far_eq : far = ((1000000000 : ℝ) : EReal) := by
  unfold far
  simp [Ideal.ofBits, Ideal.ieee, -EReal.coe_mul]; norm_num

/-- A padding row lies outside the cutoff radius. -/
theorem mask_far : mask far = 0 := by
  unfold mask
  rw [if_neg]
  rw [far_eq, ten_eq, EReal.coe_lt_coe_iff]; norm_num

theorem cut_far : cut far = 0 := by
  unfold cut; rw [mask_far, mul_zero]

/-- A padding row's message is zero, whatever its features and the weights. -/
theorem ef_far (P : Params) (xs : Fin 64 → EReal) (f : Fin 64) : ef P xs far f = 0 := by
  unfold ef; rw [cut_far, mul_zero]

/-! ### The mask, as each program spells it -/

/-- The comparison's bit widened to a word and read as a signed integer. -/
theorem mask_of_signed_word (t : EReal) :
    ((((Ideal.cmp .olt t ten).setWidth 32).toInt : ℝ) : EReal) = mask t := by
  unfold mask Ideal.cmp
  by_cases h : t < ten
  · simp [h]
  · simp [h]

/-- The comparison's bit read as an unsigned integer. -/
theorem mask_of_unsigned_bit (t : EReal) :
    (((Ideal.cmp .olt t ten).toNat : ℝ) : EReal) = mask t := by
  unfold mask Ideal.cmp
  by_cases h : t < ten
  · simp [h]
  · simp [h]

/-! ### The logistic function, spelled out with the literal one -/

theorem one_eq : Ideal.ofBits .f32 0x3F800000#32 = (1 : EReal) := by
  rw [Cert.LibCoe.ofBits_one, EReal.coe_one]

theorem zero_eq : Ideal.ofBits .f32 0x00000000#32 = (0 : EReal) := Ideal.ofBits_zero_f32

/-- `1 / (1 + e^(-z))` with both ones given as literals is the logistic function. -/
theorem logistic_spelled (z : EReal) :
    Ideal.div (Ideal.ofBits .f32 0x3F800000#32) (Ideal.ofBits .f32 0x3F800000#32 + Ideal.exp (-z)) = Ideal.logistic z := by
  rw [one_eq]; rfl

/-! ### A sum over 68 terms is the sum of its first 64 and its last 4 -/

theorem sum_split_64_4 (g : Fin 68 → EReal) :
    ∑ k : Fin 68, g k = (∑ k : Fin 64, g (Fin.castAdd 4 k)) + ∑ k : Fin 4, g (Fin.natAdd 64 k) :=
  Fin.sum_univ_add (a := 64) (b := 4) g

end Cert.EdgeNet

end
-- ==== Proof.Region0.lean ====
/-
  The first grid's value: after its 196 points, the edge-message array holds, in every one of its 802816 rows,
  the edge network's message of that row's feature row and distance (`Cert.EdgeNet.ef`), whatever the arrays hold
  when the grid is entered.

  Three steps. (1) At one entry of a 4096-row block the stored value is the message: the radial network
  (a broadcast multiply-add, the activation, a 16-term product, bias, activation) is `Cert.EdgeNet.rad`, and the two
  layers of the edge network with the cutoff factor are `Cert.EdgeNet.ef`; each of the three matrix products is a
  finite sum over its one shared axis, and the format changes and same-shape casts are the identity on extended
  reals. (2) Point `t` reads rows `4096 t … 4096 t + 4095` of the features and distances and the whole of each weight
  array, so what it writes back is block `t` of the messages. (3) Row `r` lies in the block of point `r / 4096`, and
  `196 · 4096 = 802816`, so the blocks cover the array.
-/
import proofs.«109811_j72164040507424_1_alg».proof.Proof.Gen.KernelIdeal.Frame
import proofs.«109811_j72164040507424_1_alg».proof.Proof.Spec
import Idealize.ShloMosaic.Lib.ValueIdx
import Idealize.ShloMosaic.Lib.Pipeline.Value
import Idealize.ShloMosaic.Lib.ValueLayout
import Idealize.ShloMosaic.PureOps.Ideal.Laws
import Mathlib.Algebra.BigOperators.Fin

noncomputable section

namespace Cert.KernelIdeal.Edge

open Idealize.ShloMosaic Idealize.ShloMosaic.TcCoe Idealize.ShloMosaic.ValueIdx
open Idealize.SL.Sem
open Idealize.ShloMosaic.Pipeline (Dat)
open Cert.KernelIdeal Cert.KernelIdeal.Gen
open Finset BigOperators

/-! ## The body's arithmetic at one entry of a block -/

/-! ### The 4096×16 by 16×4 product read at an entry -/

theorem lhs_prod16_0 (i : S4096x4.Idx) (q : dot_S4096x16_S16x4_S4096x4_1_0_0_1_n_n.contr.Idx) :
    (dot_S4096x16_S16x4_S4096x4_1_0_0_1_n_n.lhsIdx i q 0).val = (i 0).val := by
  unfold DotDims.lhsIdx
  rw [dif_neg (show ¬(0 : Fin S4096x16.rank) ∈ dot_S4096x16_S16x4_S4096x4_1_0_0_1_n_n.lhsBatch by decide), dif_pos (show (0 : Fin S4096x16.rank) ∈ dot_S4096x16_S16x4_S4096x4_1_0_0_1_n_n.lhsNonContracting by decide)]
  rfl
theorem lhs_prod16_1 (i : S4096x4.Idx) (q : dot_S4096x16_S16x4_S4096x4_1_0_0_1_n_n.contr.Idx) :
    (dot_S4096x16_S16x4_S4096x4_1_0_0_1_n_n.lhsIdx i q 1).val = (q ⟨0, by decide⟩).val :=
  dot_S4096x16_S16x4_S4096x4_1_0_0_1_n_n.lhsIdx_val_of_single rfl i q
theorem rhs_prod16_0 (i : S4096x4.Idx) (q : dot_S4096x16_S16x4_S4096x4_1_0_0_1_n_n.contr.Idx) :
    (dot_S4096x16_S16x4_S4096x4_1_0_0_1_n_n.rhsIdx i q 0).val = (q ⟨0, by decide⟩).val :=
  dot_S4096x16_S16x4_S4096x4_1_0_0_1_n_n.rhsIdx_val_of_single rfl i q
theorem rhs_prod16_1 (i : S4096x4.Idx) (q : dot_S4096x16_S16x4_S4096x4_1_0_0_1_n_n.contr.Idx) :
    (dot_S4096x16_S16x4_S4096x4_1_0_0_1_n_n.rhsIdx i q 1).val = (i 1).val := by
  unfold DotDims.rhsIdx
  rw [dif_neg (show ¬(1 : Fin S16x4.rank) ∈ dot_S4096x16_S16x4_S4096x4_1_0_0_1_n_n.rhsBatch by decide), dif_pos (show (1 : Fin S16x4.rank) ∈ dot_S4096x16_S16x4_S4096x4_1_0_0_1_n_n.rhsNonContracting by decide)]
  rfl

/-- Into a zero accumulator the product's entry `(p, f)` is the sum over the shared axis of row `p` against column `f`. -/
theorem prod16_apply {φ₁ φ₂ : FTy} (a : FVec Ideal S4096x16 φ₁) (b : FVec Ideal S16x4 φ₂) (p : Fin 4096) (f : Fin 4) :
    matmul dot_S4096x16_S16x4_S4096x4_1_0_0_1_n_n none a b (constant (F := Ideal) S4096x4 .f32 0x00000000#32) (ix2 p f) = ∑ k : Fin 16, a (ix2 p k) * b (ix2 k f) := by
  simp only [matmul]
  rw [Ideal.matmul_constant_zero_apply, ← Equiv.sum_comp (contrEquiv1 dot_S4096x16_S16x4_S4096x4_1_0_0_1_n_n 16 rfl rfl).symm]
  refine Finset.sum_congr rfl fun k _ => ?_
  have hk := contrEquiv1_symm_val dot_S4096x16_S16x4_S4096x4_1_0_0_1_n_n 16 rfl rfl k
  have el : dot_S4096x16_S16x4_S4096x4_1_0_0_1_n_n.lhsIdx (ix2 p f) ((contrEquiv1 dot_S4096x16_S16x4_S4096x4_1_0_0_1_n_n 16 rfl rfl).symm k) = ix2 p k := funext fun ax => Fin.ext (by
    match ax with
    | ⟨0, _⟩ => exact lhs_prod16_0 _ _
    | ⟨1, _⟩ => exact (lhs_prod16_1 _ _).trans hk)
  have er : dot_S4096x16_S16x4_S4096x4_1_0_0_1_n_n.rhsIdx (ix2 p f) ((contrEquiv1 dot_S4096x16_S16x4_S4096x4_1_0_0_1_n_n 16 rfl rfl).symm k) = ix2 k f := funext fun ax => Fin.ext (by
    match ax with
    | ⟨0, _⟩ => exact (rhs_prod16_0 _ _).trans hk
    | ⟨1, _⟩ => exact rhs_prod16_1 _ _)
  rw [el, er]

/-! ### The 4096×64 by 64×64 product read at an entry -/

theorem lhs_prod64_0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
theorem lhs_prod64_1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q
theorem rhs_prod64_0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q
theorem rhs_prod64_1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- Into a zero accumulator the product's entry `(p, f)` is the sum over the shared axis of row `p` against column `f`. -/
theorem prod64_apply {φ₁ φ₂ : FTy} (a : FVec Ideal S4096x64 φ₁) (b : FVec Ideal S64x64 φ₂) (p : Fin 4096) (f : Fin 64) :
    matmul dot_S4096x64_S64x64_S4096x64_1_0_0_1_n_n none a b (constant (F := Ideal) S4096x64 .f32 0x00000000#32) (ix2 p f) = ∑ k : Fin 64, a (ix2 p k) * b (ix2 k f) := by
  simp only [matmul]
  rw [Ideal.matmul_constant_zero_apply, ← Equiv.sum_comp (contrEquiv1 dot_S4096x64_S64x64_S4096x64_1_0_0_1_n_n 64 rfl rfl).symm]
  refine Finset.sum_congr rfl fun k _ => ?_
  have hk := contrEquiv1_symm_val dot_S4096x64_S64x64_S4096x64_1_0_0_1_n_n 64 rfl rfl k
  have el : dot_S4096x64_S64x64_S4096x64_1_0_0_1_n_n.lhsIdx (ix2 p f) ((contrEquiv1 dot_S4096x64_S64x64_S4096x64_1_0_0_1_n_n 64 rfl rfl).symm k) = ix2 p k := funext fun ax => Fin.ext (by
    match ax with
    | ⟨0, _⟩ => exact lhs_prod64_0 _ _
    | ⟨1, _⟩ => exact (lhs_prod64_1 _ _).trans hk)
  have er : dot_S4096x64_S64x64_S4096x64_1_0_0_1_n_n.rhsIdx (ix2 p f) ((contrEquiv1 dot_S4096x64_S64x64_S4096x64_1_0_0_1_n_n 64 rfl rfl).symm k) = ix2 k f := funext fun ax => Fin.ext (by
    match ax with
    | ⟨0, _⟩ => exact (rhs_prod64_0 _ _).trans hk
    | ⟨1, _⟩ => exact rhs_prod64_1 _ _)
  rw [el, er]

/-! ### The 4096×4 by 4×64 product read at an entry -/

theorem lhs_prod4_0 (i : S4096x64.Idx) (q : dot_S4096x4_S4x64_S4096x64_1_0_0_1_n_n.contr.Idx) :
    (dot_S4096x4_S4x64_S4096x64_1_0_0_1_n_n.lhsIdx i q 0).val = (i 0).val := by
  unfold DotDims.lhsIdx
  rw [dif_neg (show ¬(0 : Fin S4096x4.rank) ∈ dot_S4096x4_S4x64_S4096x64_1_0_0_1_n_n.lhsBatch by decide), dif_pos (show (0 : Fin S4096x4.rank) ∈ dot_S4096x4_S4x64_S4096x64_1_0_0_1_n_n.lhsNonContracting by decide)]
  rfl
theorem lhs_prod4_1 (i : S4096x64.Idx) (q : dot_S4096x4_S4x64_S4096x64_1_0_0_1_n_n.contr.Idx) :
    (dot_S4096x4_S4x64_S4096x64_1_0_0_1_n_n.lhsIdx i q 1).val = (q ⟨0, by decide⟩).val :=
  dot_S4096x4_S4x64_S4096x64_1_0_0_1_n_n.lhsIdx_val_of_single rfl i q
theorem rhs_prod4_0 (i : S4096x64.Idx) (q : dot_S4096x4_S4x64_S4096x64_1_0_0_1_n_n.contr.Idx) :
    (dot_S4096x4_S4x64_S4096x64_1_0_0_1_n_n.rhsIdx i q 0).val = (q ⟨0, by decide⟩).val :=
  dot_S4096x4_S4x64_S4096x64_1_0_0_1_n_n.rhsIdx_val_of_single rfl i q
theorem rhs_prod4_1 (i : S4096x64.Idx) (q : dot_S4096x4_S4x64_S4096x64_1_0_0_1_n_n.contr.Idx) :
    (dot_S4096x4_S4x64_S4096x64_1_0_0_1_n_n.rhsIdx i q 1).val = (i 1).val := by
  unfold DotDims.rhsIdx
  rw [dif_neg (show ¬(1 : Fin S4x64.rank) ∈ dot_S4096x4_S4x64_S4096x64_1_0_0_1_n_n.rhsBatch by decide), dif_pos (show (1 : Fin S4x64.rank) ∈ dot_S4096x4_S4x64_S4096x64_1_0_0_1_n_n.rhsNonContracting by decide)]
  rfl

/-- Into a zero accumulator the product's entry `(p, f)` is the sum over the shared axis of row `p` against column `f`. -/
theorem prod4_apply {φ₁ φ₂ : FTy} (a : FVec Ideal S4096x4 φ₁) (b : FVec Ideal S4x64 φ₂) (p : Fin 4096) (f : Fin 64) :
    matmul dot_S4096x4_S4x64_S4096x64_1_0_0_1_n_n none a b (constant (F := Ideal) S4096x64 .f32 0x00000000#32) (ix2 p f) = ∑ k : Fin 4, a (ix2 p k) * b (ix2 k f) := by
  simp only [matmul]
  rw [Ideal.matmul_constant_zero_apply, ← Equiv.sum_comp (contrEquiv1 dot_S4096x4_S4x64_S4096x64_1_0_0_1_n_n 4 rfl rfl).symm]
  refine Finset.sum_congr rfl fun k _ => ?_
  have hk := contrEquiv1_symm_val dot_S4096x4_S4x64_S4096x64_1_0_0_1_n_n 4 rfl rfl k
  have el : dot_S4096x4_S4x64_S4096x64_1_0_0_1_n_n.lhsIdx (ix2 p f) ((contrEquiv1 dot_S4096x4_S4x64_S4096x64_1_0_0_1_n_n 4 rfl rfl).symm k) = ix2 p k := funext fun ax => Fin.ext (by
    match ax with
    | ⟨0, _⟩ => exact lhs_prod4_0 _ _
    | ⟨1, _⟩ => exact (lhs_prod4_1 _ _).trans hk)
  have er : dot_S4096x4_S4x64_S4096x64_1_0_0_1_n_n.rhsIdx (ix2 p f) ((contrEquiv1 dot_S4096x4_S4x64_S4096x64_1_0_0_1_n_n 4 rfl rfl).symm k) = ix2 k f := funext fun ax => Fin.ext (by
    match ax with
    | ⟨0, _⟩ => exact (rhs_prod4_0 _ _).trans hk
    | ⟨1, _⟩ => exact rhs_prod4_1 _ _)
  rw [el, er]

/-! ### One column broadcast over many -/

/-- An `[a, 1]` array broadcast to `[a, b]` reads, at `(p, q)`, the operand's one column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ### The two payloads read at an entry -/

/-- The logistic function acts entry by entry. -/
theorem logistic_apply {s : Shape} {φ : FTy} (x : FVec Ideal s φ) (i : s.Idx) : logistic x i = Ideal.logistic (x i) := rfl

/-- The radial network's four outputs for row `p` of a block: the distance column against the first layer's
    weights, the activation, the 16-term product with the second layer's weights, its bias, the activation. -/
theorem radial_at (P : Cert.EdgeNet.Params) (d : Vec Ideal S4096x1 .f32) (a1 c1 : Vec Ideal S1x16 .f32)
    (a2 : Vec Ideal S16x4 .f32) (c2 : Vec Ideal S1x4 .f32)
    (h1 : ∀ j : Fin 16, a1 (ix2 0 j) = P.wr1 j) (h2 : ∀ j : Fin 16, c1 (ix2 0 j) = P.br1 j)
    (h3 : ∀ (j : Fin 16) (k : Fin 4), a2 (ix2 j k) = P.wr2 j k) (h4 : ∀ k : Fin 4, c2 (ix2 0 k) = P.br2 k)
    (p : Fin 4096) (k : Fin 4) :
    k0_pay9 d a1 c1 a2 c2 (ix2 p k) = Cert.EdgeNet.rad P (d (ix2 p 0)) k := by
  unfold k0_pay9 k0_pay3 Cert.EdgeNet.rad Cert.EdgeNet.r1 Cert.EdgeNet.silu
  simp only [shapeCast_self, mulf_apply, addf_apply, logistic_apply, truncf_apply, prod16_apply,
    broadcastTo_1b_ab_apply, broadcastTo_a1_ab_apply, h1, h2, h3, h4]

/-- The literal the cutoff divides by and compares against is the cutoff radius. -/
theorem ten_literal : (Scalar.ofBits (F := Ideal) .f32 0x41200000#32 : EReal) = Cert.EdgeNet.ten := rfl

/-- The message for row `p` of a block: the feature row against the first 64 weight rows plus the radial numbers
    against the last 4, bias, activation; the second layer the same way; the whole scaled by the cutoff of the
    row's distance. -/
theorem message_at (P : Cert.EdgeNet.Params) (x : FVec Ideal S4096x64 .f32) (d : FVec Ideal S4096x1 .f32)
    (u1 : FVec Ideal S64x64 .bf16) (u2 : FVec Ideal S4x64 .bf16) (e1 : FVec Ideal S1x64 .f32)
    (u3 : FVec Ideal S64x64 .bf16) (e2 : FVec Ideal S1x64 .f32) (r : FVec Ideal S4096x4 .f32)
    (h1 : ∀ (k f : Fin 64), u1 (ix2 k f) = P.w1a k f) (h2 : ∀ (k : Fin 4) (f : Fin 64), u2 (ix2 k f) = P.w1b k f)
    (h3 : ∀ f : Fin 64, e1 (ix2 0 f) = P.b1 f) (h4 : ∀ (k f : Fin 64), u3 (ix2 k f) = P.w2 k f)
    (h5 : ∀ f : Fin 64, e2 (ix2 0 f) = P.b2 f)
    (p : Fin 4096) (hr : ∀ k : Fin 4, r (ix2 p k) = Cert.EdgeNet.rad P (d (ix2 p 0)) k) (q : Fin 64) :
    k0_pay1 x d u1 u2 e1 u3 e2 r (ix2 p q) = Cert.EdgeNet.ef P (fun k => x (ix2 p k)) (d (ix2 p 0)) q := by
  unfold k0_pay1 Cert.EdgeNet.ef Cert.EdgeNet.h1 Cert.EdgeNet.silu Cert.EdgeNet.cut
  simp only [mulf_apply, addf_apply, subf_apply, divf_apply, maximumf_apply, minimumf_apply, logistic_apply,
    truncf_apply, broadcast_apply, cmpf_apply, extui_apply, sitofp_apply, prod64_apply, prod4_apply,
    broadcastTo_1b_ab_apply, broadcastTo_a1_ab_apply, h1, h2, h3, h4, h5, hr, Ideal.ofBits_def,
    Cert.EdgeNet.one_eq, Cert.EdgeNet.zero_eq]
  rw [← Cert.EdgeNet.mask_of_signed_word]
  rfl

/-- The body's stored value at row `p`, column `q` of a block, from the eleven blocks it loads: the message of the
    block's feature row `p` and distance `p` under the weights the weight blocks hold. -/
theorem block_message (P : Cert.EdgeNet.Params) (x0 : Vec Ideal S4096x64 .f32) (x1 : Vec Ideal S4096x1 .f32)
    (x2 x3 : Vec Ideal S1x16 .f32) (x4 : Vec Ideal S16x4 .f32) (x5 : Vec Ideal S1x4 .f32) (x6 : Vec Ideal S64x64 .f32)
    (x7 : Vec Ideal S4x64 .f32) (x8 : Vec Ideal S1x64 .f32) (x9 : Vec Ideal S64x64 .f32) (x10 : Vec Ideal S1x64 .f32)
    (h2 : ∀ j : Fin 16, x2 (ix2 0 j) = P.wr1 j) (h3 : ∀ j : Fin 16, x3 (ix2 0 j) = P.br1 j)
    (h4 : ∀ (j : Fin 16) (k : Fin 4), x4 (ix2 j k) = P.wr2 j k) (h5 : ∀ k : Fin 4, x5 (ix2 0 k) = P.br2 k)
    (h6 : ∀ (k f : Fin 64), x6 (ix2 k f) = P.w1a k f) (h7 : ∀ (k : Fin 4) (f : Fin 64), x7 (ix2 k f) = P.w1b k f)
    (h8 : ∀ f : Fin 64, x8 (ix2 0 f) = P.b1 f) (h9 : ∀ (k f : Fin 64), x9 (ix2 k f) = P.w2 k f)
    (h10 : ∀ f : Fin 64, x10 (ix2 0 f) = P.b2 f) (p : Fin 4096) (q : Fin 64) :
    k0_pay1 (k0_pay2 x0) (k0_pay3 x1) (k0_pay4 x6) (k0_pay5 x7) (k0_pay6 x8) (k0_pay7 x9) (k0_pay8 x10)
        (k0_pay9 x1 x2 x3 x4 x5) (ix2 p q)
      = Cert.EdgeNet.ef P (fun k => x0 (ix2 p k)) (x1 (ix2 p 0)) q := by
  have e2 : k0_pay2 x0 = x0 := by unfold k0_pay2; exact shapeCast_self _ _
  have e3 : k0_pay3 x1 = x1 := by unfold k0_pay3; exact shapeCast_self _ _
  have e6 : k0_pay6 x8 = x8 := by unfold k0_pay6; exact shapeCast_self _ _
  have e8 : k0_pay8 x10 = x10 := by unfold k0_pay8; exact shapeCast_self _ _
  rw [e2, e3, e6, e8]
  exact message_at P x0 x1 (k0_pay4 x6) (k0_pay5 x7) x8 (k0_pay7 x9) x10 (k0_pay9 x1 x2 x3 x4 x5)
    (fun k f => by unfold k0_pay4; rw [truncf_apply, shapeCast_self]; exact h6 k f)
    (fun k f => by unfold k0_pay5; rw [truncf_apply, shapeCast_self]; exact h7 k f)
    h8
    (fun k f => by unfold k0_pay7; rw [truncf_apply]; exact h9 k f)
    h10 p (fun k => radial_at P x1 x2 x3 x4 x5 h2 h3 h4 h5 p k) q

/-! ## The region's arrays, its weights, and the messages it computes -/

variable (V : (c : Dev nD) → (b : Ref sig .tc) → Buf (Elt Ideal) ((c : Thread nD τ).loc b))

/-- The padded feature rows, one per edge. -/
abbrev feats (c : Dev nD) : FVec Ideal S802816x64 .f32 := V c main_v28
/-- The padded distances, one per edge. -/
abbrev dist (c : Dev nD) : FVec Ideal S802816x1 .f32 := V c main_v33
/-- The radial network's first-layer weights and bias. -/
abbrev wr1 (c : Dev nD) : FVec Ideal S1x16 .f32 := V c main_arg9
abbrev br1 (c : Dev nD) : FVec Ideal S1x16 .f32 := V c main_v36
/-- The radial network's second-layer weights and bias. -/
abbrev wr2 (c : Dev nD) : FVec Ideal S16x4 .f32 := V c main_arg11
abbrev br2 (c : Dev nD) : FVec Ideal S1x4 .f32 := V c main_v37
/-- The edge network's first layer: the 64 weight rows that meet the features, the 4 that meet the radial numbers, the bias. -/
abbrev w1a (c : Dev nD) : FVec Ideal S64x64 .f32 := V c main_v34
abbrev w1b (c : Dev nD) : FVec Ideal S4x64 .f32 := V c main_v35
abbrev b1 (c : Dev nD) : FVec Ideal S1x64 .f32 := V c main_v38
/-- The edge network's second layer. -/
abbrev w2 (c : Dev nD) : FVec Ideal S64x64 .f32 := V c main_arg7
abbrev b2 (c : Dev nD) : FVec Ideal S1x64 .f32 := V c main_v39

/-- The weights, entry by entry. -/
def params (c : Dev nD) : Cert.EdgeNet.Params :=
  { wr1 := fun j => wr1 V c (ix2 0 j), br1 := fun j => br1 V c (ix2 0 j), wr2 := fun j k => wr2 V c (ix2 j k),
    br2 := fun k => br2 V c (ix2 0 k), w1a := fun k f => w1a V c (ix2 k f), w1b := fun k f => w1b V c (ix2 k f),
    b1 := fun f => b1 V c (ix2 0 f), w2 := fun k f => w2 V c (ix2 k f), b2 := fun f => b2 V c (ix2 0 f) }

/-- Every edge row's message: the edge network of its feature row and its distance. -/
def messages (c : Dev nD) : FVec Ideal S802816x64 .f32 := fun i =>
  Cert.EdgeNet.ef (params V c) (fun k => feats V c (ix2 (i 0) k)) (dist V c (ix2 (i 0) 0)) (i 1)

/-- The messages at an index given by its two coordinates. -/
theorem messages_at (c : Dev nD) (i : S802816x64.Idx) (r : Fin 802816) (q : Fin 64)
    (h0 : (i 0).val = r.val) (h1 : (i 1).val = q.val) :
    messages V c i = Cert.EdgeNet.ef (params V c) (fun k => feats V c (ix2 r k)) (dist V c (ix2 r 0)) q := by
  obtain rfl : i = ix2 r q := funext fun a => Fin.ext (by
    match a with
    | ⟨0, _⟩ => exact h0
    | ⟨1, _⟩ => exact h1)
  rfl

/-! ## Where each window's block sits -/

theorem zero_offsets : (![0, 0] : Fin 2 → Nat) = fun _ => 0 := funext fun a => by
  match a with
  | ⟨0, _⟩ => rfl
  | ⟨1, _⟩ => rfl

/-- The windows' index maps, decided over the grid: the feature rows, the distances and the output move one block of
    rows a point; every weight window stays on its one block. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0) :=
  (by decide +kernel : ∀ t : Fin grid0.N, _)

/-! ## The blocks the body reads at a point -/

/-- The feature window's block at point `t` is rows `4096 t … 4096 t + 4095` of the feature array. -/
theorem feats_block (c : Dev nD) (t : Fin cfg0.N) (y : S4096x64.Idx) (i : S802816x64.Idx)
    (h0 : (i 0).val = t.val * 4096 + (y 0).val) (h1 : (i 1).val = (y 1).val) :
    (Gen.iblk0 V c 0 t : Vec Ideal S4096x64 .f32) y = feats V c i := by
  unfold Gen.iblk0
  rw [View.read_apply]
  show V c main_v28 _ = V c main_v28 i
  congr 1
  funext a; apply Fin.ext
  have hi := (index_facts t).1
  match a with
  | ⟨0, _⟩ => show win0_0.index t (0 : Fin 2) * 4096 + 1 * (y 0).val = (i 0).val; rw [hi.1, h0]; omega
  | ⟨1, _⟩ => show win0_0.index t (1 : Fin 2) * 64 + 1 * (y 1).val = (i 1).val; rw [hi.2, h1]; omega

/-- The distance window's block at point `t` is the same rows of the distance column. -/
theorem dist_block (c : Dev nD) (t : Fin cfg0.N) (y : S4096x1.Idx) (i : S802816x1.Idx)
    (h0 : (i 0).val = t.val * 4096 + (y 0).val) (h1 : (i 1).val = (y 1).val) :
    (Gen.iblk0 V c 1 t : Vec Ideal S4096x1 .f32) y = dist V c i := by
  unfold Gen.iblk0
  rw [View.read_apply]
  show V c main_v33 _ = V c main_v33 i
  congr 1
  funext a; apply Fin.ext
  have hi := (index_facts t).2.1
  match a with
  | ⟨0, _⟩ => show win0_1.index t (0 : Fin 2) * 4096 + 1 * (y 0).val = (i 0).val; rw [hi.1, h0]; omega
  | ⟨1, _⟩ => show win0_1.index t (1 : Fin 2) * 1 + 1 * (y 1).val = (i 1).val; rw [hi.2, h1]; omega

/-- Window 2's block is the whole of its array at every point. -/
theorem wr1_block (c : Dev nD) (t : Fin cfg0.N) : (Gen.iblk0 V c 2 t : Vec Ideal S1x16 .f32) = wr1 V c := by
  funext y
  unfold Gen.iblk0
  rw [View.read_apply]
  show V c main_arg9 _ = V c main_arg9 y
  congr 1
  funext a; apply Fin.ext
  have hi := (index_facts t).2.2.1
  match a with
  | ⟨0, _⟩ => show win0_2.index t (0 : Fin 2) * 1 + 1 * (y 0).val = (y 0).val; rw [hi.1]; omega
  | ⟨1, _⟩ => show win0_2.index t (1 : Fin 2) * 16 + 1 * (y 1).val = (y 1).val; rw [hi.2]; omega

/-- Window 3's block is the whole of its array at every point. -/
theorem br1_block (c : Dev nD) (t : Fin cfg0.N) : (Gen.iblk0 V c 3 t : Vec Ideal S1x16 .f32) = br1 V c := by
  funext y
  unfold Gen.iblk0
  rw [View.read_apply]
  show V c main_v36 _ = V c main_v36 y
  congr 1
  funext a; apply Fin.ext
  have hi := (index_facts t).2.2.2.1
  match a with
  | ⟨0, _⟩ => show win0_3.index t (0 : Fin 2) * 1 + 1 * (y 0).val = (y 0).val; rw [hi.1]; omega
  | ⟨1, _⟩ => show win0_3.index t (1 : Fin 2) * 16 + 1 * (y 1).val = (y 1).val; rw [hi.2]; omega

/-- Window 4's block is the whole of its array at every point. -/
theorem wr2_block (c : Dev nD) (t : Fin cfg0.N) : (Gen.iblk0 V c 4 t : Vec Ideal S16x4 .f32) = wr2 V c := by
  funext y
  unfold Gen.iblk0
  rw [View.read_apply]
  show V c main_arg11 _ = V c main_arg11 y
  congr 1
  funext a; apply Fin.ext
  have hi := (index_facts t).2.2.2.2.1
  match a with
  | ⟨0, _⟩ => show win0_4.index t (0 : Fin 2) * 16 + 1 * (y 0).val = (y 0).val; rw [hi.1]; omega
  | ⟨1, _⟩ => show win0_4.index t (1 : Fin 2) * 4 + 1 * (y 1).val = (y 1).val; rw [hi.2]; omega

/-- Window 5's block is the whole of its array at every point. -/
theorem br2_block (c : Dev nD) (t : Fin cfg0.N) : (Gen.iblk0 V c 5 t : Vec Ideal S1x4 .f32) = br2 V c := by
  funext y
  unfold Gen.iblk0
  rw [View.read_apply]
  show V c main_v37 _ = V c main_v37 y
  congr 1
  funext a; apply Fin.ext
  have hi := (index_facts t).2.2.2.2.2.1
  match a with
  | ⟨0, _⟩ => show win0_5.index t (0 : Fin 2) * 1 + 1 * (y 0).val = (y 0).val; rw [hi.1]; omega
  | ⟨1, _⟩ => show win0_5.index t (1 : Fin 2) * 4 + 1 * (y 1).val = (y 1).val; rw [hi.2]; omega

/-- Window 6's block is the whole of its array at every point. -/
theorem w1a_block (c : Dev nD) (t : Fin cfg0.N) : (Gen.iblk0 V c 6 t : Vec Ideal S64x64 .f32) = w1a V c := by
  funext y
  unfold Gen.iblk0
  rw [View.read_apply]
  show V c main_v34 _ = V c main_v34 y
  congr 1
  funext a; apply Fin.ext
  have hi := (index_facts t).2.2.2.2.2.2.1
  match a with
  | ⟨0, _⟩ => show win0_6.index t (0 : Fin 2) * 64 + 1 * (y 0).val = (y 0).val; rw [hi.1]; omega
  | ⟨1, _⟩ => show win0_6.index t (1 : Fin 2) * 64 + 1 * (y 1).val = (y 1).val; rw [hi.2]; omega

/-- Window 7's block is the whole of its array at every point. -/
theorem w1b_block (c : Dev nD) (t : Fin cfg0.N) : (Gen.iblk0 V c 7 t : Vec Ideal S4x64 .f32) = w1b V c := by
  funext y
  unfold Gen.iblk0
  rw [View.read_apply]
  show V c main_v35 _ = V c main_v35 y
  congr 1
  funext a; apply Fin.ext
  have hi := (index_facts t).2.2.2.2.2.2.2.1
  match a with
  | ⟨0, _⟩ => show win0_7.index t (0 : Fin 2) * 4 + 1 * (y 0).val = (y 0).val; rw [hi.1]; omega
  | ⟨1, _⟩ => show win0_7.index t (1 : Fin 2) * 64 + 1 * (y 1).val = (y 1).val; rw [hi.2]; omega

/-- Window 8's block is the whole of its array at every point. -/
theorem b1_block (c : Dev nD) (t : Fin cfg0.N) : (Gen.iblk0 V c 8 t : Vec Ideal S1x64 .f32) = b1 V c := by
  funext y
  unfold Gen.iblk0
  rw [View.read_apply]
  show V c main_v38 _ = V c main_v38 y
  congr 1
  funext a; apply Fin.ext
  have hi := (index_facts t).2.2.2.2.2.2.2.2.1
  match a with
  | ⟨0, _⟩ => show win0_8.index t (0 : Fin 2) * 1 + 1 * (y 0).val = (y 0).val; rw [hi.1]; omega
  | ⟨1, _⟩ => show win0_8.index t (1 : Fin 2) * 64 + 1 * (y 1).val = (y 1).val; rw [hi.2]; omega

/-- Window 9's block is the whole of its array at every point. -/
theorem w2_block (c : Dev nD) (t : Fin cfg0.N) : (Gen.iblk0 V c 9 t : Vec Ideal S64x64 .f32) = w2 V c := by
  funext y
  unfold Gen.iblk0
  rw [View.read_apply]
  show V c main_arg7 _ = V c main_arg7 y
  congr 1
  funext a; apply Fin.ext
  have hi := (index_facts t).2.2.2.2.2.2.2.2.2.1
  match a with
  | ⟨0, _⟩ => show win0_9.index t (0 : Fin 2) * 64 + 1 * (y 0).val = (y 0).val; rw [hi.1]; omega
  | ⟨1, _⟩ => show win0_9.index t (1 : Fin 2) * 64 + 1 * (y 1).val = (y 1).val; rw [hi.2]; omega

/-- Window 10's block is the whole of its array at every point. -/
theorem b2_block (c : Dev nD) (t : Fin cfg0.N) : (Gen.iblk0 V c 10 t : Vec Ideal S1x64 .f32) = b2 V c := by
  funext y
  unfold Gen.iblk0
  rw [View.read_apply]
  show V c main_v39 _ = V c main_v39 y
  congr 1
  funext a; apply Fin.ext
  have hi := (index_facts t).2.2.2.2.2.2.2.2.2.2.1
  match a with
  | ⟨0, _⟩ => show win0_10.index t (0 : Fin 2) * 1 + 1 * (y 0).val = (y 0).val; rw [hi.1]; omega
  | ⟨1, _⟩ => show win0_10.index t (1 : Fin 2) * 64 + 1 * (y 1).val = (y 1).val; rw [hi.2]; omega

/-! ## What a point writes back -/

/-- Point `t` writes back block `t` of the messages. -/
theorem flushed_eq (c : Dev nD) (t : Fin cfg0.N) :
    (Gen.dat0 (F := Ideal) V c).flushed 11 t = ((cfg0.win 11).blk t).view.read (Elt Ideal) (messages V c) := by
  show (cfg0.win 11).cut (grid0.coords t) ((Gen.dat0 (F := Ideal) V c).after 11 t) = _
  rw [Gen.after0_11]
  unfold Gen.out0_11
  rw [View.canon_unit_zero zero_offsets]
  simp only [View.ld_unit_zero (S := S4096x64) zero_offsets, View.ld_unit_zero (S := S4096x1) zero_offsets,
    View.ld_unit_zero (S := S1x16) zero_offsets, View.ld_unit_zero (S := S16x4) zero_offsets,
    View.ld_unit_zero (S := S1x4) zero_offsets, View.ld_unit_zero (S := S64x64) zero_offsets,
    View.ld_unit_zero (S := S4x64) zero_offsets, View.ld_unit_zero (S := S1x64) zero_offsets]
  funext j
  obtain ⟨p, q, rfl⟩ : ∃ (p : Fin 4096) (q : Fin 64), j = ix2 p q := ⟨j 0, j 1, eq_ix2 j⟩
  show k0_pay1 (k0_pay2 (Gen.iblk0 V c 0 t)) (k0_pay3 (Gen.iblk0 V c 1 t)) (k0_pay4 (Gen.iblk0 V c 6 t))
      (k0_pay5 (Gen.iblk0 V c 7 t)) (k0_pay6 (Gen.iblk0 V c 8 t)) (k0_pay7 (Gen.iblk0 V c 9 t))
      (k0_pay8 (Gen.iblk0 V c 10 t))
      (k0_pay9 (Gen.iblk0 V c 1 t) (Gen.iblk0 V c 2 t) (Gen.iblk0 V c 3 t) (Gen.iblk0 V c 4 t) (Gen.iblk0 V c 5 t)) (ix2 p q)
    = messages V c (((cfg0.win 11).blk t).view.emb (ix2 p q))
  have hN : t.val < 196 := lt_of_lt_of_eq t.isLt (show cfg0.N = 196 from Gen.N_0)
  have hi := (index_facts t).2.2.2.2.2.2.2.2.2.2.2
  have hrow : t.val * 4096 + p.val < 802816 := by have := p.isLt; omega
  refine (block_message (params V c) (Gen.iblk0 V c 0 t) (Gen.iblk0 V c 1 t) (Gen.iblk0 V c 2 t) (Gen.iblk0 V c 3 t)
    (Gen.iblk0 V c 4 t) (Gen.iblk0 V c 5 t) (Gen.iblk0 V c 6 t) (Gen.iblk0 V c 7 t) (Gen.iblk0 V c 8 t)
    (Gen.iblk0 V c 9 t) (Gen.iblk0 V c 10 t)
    (fun j => congrFun (wr1_block V c t) (ix2 0 j)) (fun j => congrFun (br1_block V c t) (ix2 0 j))
    (fun j k => congrFun (wr2_block V c t) (ix2 j k)) (fun k => congrFun (br2_block V c t) (ix2 0 k))
    (fun k f => congrFun (w1a_block V c t) (ix2 k f)) (fun k f => congrFun (w1b_block V c t) (ix2 k f))
    (fun f => congrFun (b1_block V c t) (ix2 0 f)) (fun k f => congrFun (w2_block V c t) (ix2 k f))
    (fun f => congrFun (b2_block V c t) (ix2 0 f)) p q).trans ?_
  rw [messages_at V c _ ⟨t.val * 4096 + p.val, hrow⟩ q
    (by show win0_11.index t (0 : Fin 2) * 4096 + 1 * p.val = t.val * 4096 + p.val; rw [hi.1]; omega)
    (by show win0_11.index t (1 : Fin 2) * 64 + 1 * q.val = q.val; rw [hi.2]; omega)]
  congr 1
  · funext k
    exact feats_block V c t (ix2 p k) (ix2 ⟨t.val * 4096 + p.val, hrow⟩ k) rfl rfl
  · exact dist_block V c t (ix2 p 0) (ix2 ⟨t.val * 4096 + p.val, hrow⟩ 0) rfl rfl

/-! ## The blocks cover the array -/

/-- An index of the output array is in point `t`'s block iff each coordinate is in the block's range on its axis. -/
theorem mem_block (t : Fin cfg0.N) (i : S802816x64.Idx) :
    i ∈ ((cfg0.win 11).blk t).view.set ↔ ∀ a : Fin 2, win0_11.index t a * S4096x64.size a ≤ (i a).val
      ∧ (i a).val < win0_11.index t a * S4096x64.size a + S4096x64.size a := by
  show i ∈ ((View.whole main_v41).slice (win0_11.rect t)).set ↔ _
  rw [View.set_slice_whole, Rect.mem_set_unit]
  exact Iff.rfl

/-- THE REGION'S VALUE: after its 196 points the output array holds every edge row's message. Row `r` is written by
    point `r / 4096`. -/
theorem region0_value (c : Dev nD) : (Gen.dat0 (F := Ideal) V c).arrAt 11 cfg0.N = messages V c :=
  (Gen.dat0 (F := Ideal) V c).arrAt_eq_of_cover 11 (messages V c) (fun t _ => flushed_eq V c t) fun i => by
    have h0 : (i 0).val < 802816 := (i 0).isLt
    have h1 : (i 1).val < 64 := (i 1).isLt
    have hlt : (i 0).val / 4096 < cfg0.N := by rw [show cfg0.N = 196 from Gen.N_0]; omega
    refine ⟨⟨(i 0).val / 4096, hlt⟩, Gen.flush0_11 _, ?_⟩
    rw [mem_block]
    have hi := (index_facts ⟨(i 0).val / 4096, hlt⟩).2.2.2.2.2.2.2.2.2.2.2
    have hi0 : win0_11.index ⟨(i 0).val / 4096, hlt⟩ (0 : Fin 2) = (i 0).val / 4096 := hi.1
    have hi1 : win0_11.index ⟨(i 0).val / 4096, hlt⟩ (1 : Fin 2) = 0 := hi.2
    intro a
    match a with
    | ⟨0, _⟩ =>
      show win0_11.index ⟨(i 0).val / 4096, hlt⟩ (0 : Fin 2) * 4096 ≤ (i 0).val
        ∧ (i 0).val < win0_11.index ⟨(i 0).val / 4096, hlt⟩ (0 : Fin 2) * 4096 + 4096
      rw [hi0]; omega
    | ⟨1, _⟩ =>
      show win0_11.index ⟨(i 0).val / 4096, hlt⟩ (1 : Fin 2) * 64 ≤ (i 1).val
        ∧ (i 1).val < win0_11.index ⟨(i 0).val / 4096, hlt⟩ (1 : Fin 2) * 64 + 64
      rw [hi1]; omega

end Cert.KernelIdeal.Edge

end
-- ==== Proof.Region1.lean ====
/- The node projection with its residual, as one function of the arrays the second kernel region finds.

   The region walks the 50000 node rows in ten blocks of 5000. At each block it multiplies the block of node
   features by the 64×64 projection matrix, adds the bias row to every row, and adds the matching block of the
   aggregated messages. Read at the ideal values, where a change of float format is the identity and a block
   product into a zero accumulator is the plain sum over the contracted axis, the array the region leaves is

     out[r, q] = (∑ k, nodes[r, k] · wp[k, q]) + bp[0, q] + aggr[r, q].

   The file proves this in three steps: the body's arithmetic at one element of a block; what one grid point
   writes back, as the block of that function; the ten blocks tile the array. -/
import proofs.«109811_j72164040507424_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Proj

open Cert.KernelIdeal Cert.KernelIdeal.Gen Idealize.ShloMosaic Idealize.ShloMosaic.TcCoe Idealize.SL.Sem
open Idealize.ShloMosaic.ValueIdx
open Idealize.ShloMosaic.Pipeline (Dat)

/-! ## The block product at an element -/

/-- The dimension numbers of the block product: rows × contraction times contraction × columns. -/
abbrev rowsByCols : DotDims S5000x64 S64x64 S5000x64 := dot_S5000x64_S64x64_S5000x64_1_0_0_1_n_n

/-- The left operand is read at the output's row … -/
theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
/-- … and at the contraction index on its second axis. -/
theorem lhs_contr (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand is read at the contraction index on its first axis … -/
theorem rhs_contr (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … and at the output's column. -/
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- A 5000×64 block times a 64×64 matrix into the zero accumulator, at row `p` and column `q`: the sum over the
    64 contracted positions of row `p` of the block against column `q` of the matrix. -/
theorem blockProduct_apply {φ₁ φ₂ : FTy} (a : FVec Ideal S5000x64 φ₁) (w : FVec Ideal S64x64 φ₂) (p : Fin 5000) (q : Fin 64) :
    matmul rowsByCols none a w (constant (F := Ideal) S5000x64 .f32 0x00000000#32) (ix2 p q)
      = ∑ k : Fin 64, a (ix2 p k) * w (ix2 k q) := by
  simp only [matmul]
  rw [Ideal.matmul_constant_zero_apply, ← Equiv.sum_comp (contrEquiv1 rowsByCols 64 rfl rfl).symm]
  refine Finset.sum_congr rfl fun k _ => ?_
  have hk := contrEquiv1_symm_val rowsByCols 64 rfl rfl k
  have el : rowsByCols.lhsIdx (ix2 p q) ((contrEquiv1 rowsByCols 64 rfl rfl).symm k) = ix2 p k :=
    funext fun d => Fin.ext (by
      match d with
      | ⟨0, _⟩ => exact lhs_row _ _
      | ⟨1, _⟩ => exact (lhs_contr _ _).trans hk)
  have er : rowsByCols.rhsIdx (ix2 p q) ((contrEquiv1 rowsByCols 64 rfl rfl).symm k) = ix2 k q :=
    funext fun d => Fin.ext (by
      match d with
      | ⟨0, _⟩ => exact (rhs_contr _ _).trans hk
      | ⟨1, _⟩ => exact rhs_col _ _)
  rw [el, er]

/-! ## The body's arithmetic at an element of a block -/

/-- The bias row broadcast down the 5000 rows reads, in every row, the row's own column. -/
theorem biasRows_apply {α : Type} (b : S1x64.Idx → α) (h : S1x64.Broadcasts S5000x64) (p : Fin 5000) (q : Fin 64) :
    broadcastTo S5000x64 b h (ix2 p q) = b (ix2 0 q) := by
  refine broadcastTo_apply b h (ix2 p q) (ix2 0 q) fun d => ?_
  match d with
  | ⟨0, _⟩ => rfl
  | ⟨1, _⟩ => rfl

/-- What the body stores at row `p`, column `q` of its block, from the four blocks it loads: the features block
    `x`, the matrix `w`, the bias row `b` and the aggregated block `g`. -/
theorem body_apply (x : Vec Ideal S5000x64 .f32) (w : Vec Ideal S64x64 .f32) (b : Vec Ideal S1x64 .f32)
    (g : Vec Ideal S5000x64 .f32) (p : Fin 5000) (q : Fin 64) :
    k1_pay1 (F := Ideal) x w b g (ix2 p q)
      = ((∑ k : Fin 64, x (ix2 p k) * w (ix2 k q)) + b (ix2 0 q)) + g (ix2 p q) := by
  unfold k1_pay1
  rw [addf_apply, addf_apply, shapeCast_self, shapeCast_self, biasRows_apply]
  refine congrArg (· + g (ix2 p q)) (congrArg (· + b (ix2 0 q)) ?_)
  exact blockProduct_apply _ _ p q

/-! ## The arrays the region finds, and the function it leaves -/

variable (V : (c : Dev nD) → (b : Ref sig .tc) → Buf (Elt Ideal) ((c : Thread nD τ).loc b))

/-- The node features, 50000 rows of 64. -/
abbrev nodes (c : Dev nD) : FVec Ideal S50000x64 .f32 := V c main_arg0
/-- The aggregated messages, one row per node. -/
abbrev aggr (c : Dev nD) : FVec Ideal S50000x64 .f32 := V c main_v44
/-- The projection matrix. -/
abbrev wp (c : Dev nD) : FVec Ideal S64x64 .f32 := V c main_arg3
/-- The projection's bias, as one row. -/
abbrev bp (c : Dev nD) : FVec Ideal S1x64 .f32 := V c main_v40

/-- The projected node features plus the bias plus the aggregated messages, element by element. -/
def projected (c : Dev nD) : FVec Ideal S50000x64 .f32 := fun i =>
  ((∑ k : Fin 64, nodes V c (ix2 (i 0) k) * wp V c (ix2 k (i 1))) + bp V c (ix2 0 (i 1))) + aggr V c i

/-! ## Where each window's block sits -/

theorem zeros2 : (![0, 0] : Fin 2 → Nat) = fun _ => 0 := funext fun a => by fin_cases a <;> rfl

/-- The windows' index maps over the ten grid points: the two row-blocked inputs and the output sit at block row `t`,
    the matrix and the bias row at block zero. -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `y 0` of the features block at point `t` is row `t · 5000 + y 0` of the node features. -/
theorem nodes_block (c : Dev nD) (t : Fin cfg1.N) (y : S5000x64.Idx) (i : S50000x64.Idx)
    (h0 : (i 0).val = t.val * 5000 + (y 0).val) (h1 : (i 1).val = (y 1).val) :
    (iblk1 V c 0 t : Vec Ideal S5000x64 .f32) y = nodes V c i := by
  obtain ⟨e0, e1, -⟩ := blockIndex t
  unfold iblk1
  rw [View.read_apply]
  show V c main_arg0 _ = V c main_arg0 _
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 64 + 1 * (y 1).val = (i 1).val; rw [e1, h1]; omega

/-- The same of the aggregated messages. -/
theorem aggr_block (c : Dev nD) (t : Fin cfg1.N) (y : S5000x64.Idx) (i : S50000x64.Idx)
    (h0 : (i 0).val = t.val * 5000 + (y 0).val) (h1 : (i 1).val = (y 1).val) :
    (iblk1 V c 1 t : Vec Ideal S5000x64 .f32) y = aggr V c i := by
  obtain ⟨-, -, e0, e1, -⟩ := blockIndex t
  unfold iblk1
  rw [View.read_apply]
  show V c main_v44 _ = V c main_v44 _
  congr 1
  funext a
  apply Fin.ext
  match a with
  | ⟨0, _⟩ => show win1_1.index t (0 : Fin 2) * 5000 + 1 * (y 0).val = (i 0).val; rw [e0, h0]; omega
  | ⟨1, _⟩ => show win1_1.index t (1 : Fin 2) * 64 + 1 * (y 1).val = (i 1).val; rw [e1, h1]; omega

/-- The matrix's one block is the matrix, at every point. -/
theorem wp_block (c : Dev nD) (t : Fin cfg1.N) (y : S64x64.Idx) :
    (iblk1 V c 2 t : Vec Ideal S64x64 .f32) y = wp V c y := by
  obtain ⟨-, -, -, -, e0, e1, -⟩ := blockIndex t
  unfold iblk1
  rw [View.read_apply]
  show V c main_arg3 _ = V c main_arg3 _
  congr 1
  funext a
  apply Fin.ext
  match a with
  | ⟨0, _⟩ => show win1_2.index t (0 : Fin 2) * 64 + 1 * (y 0).val = (y 0).val; rw [e0]; omega
  | ⟨1, _⟩ => show win1_2.index t (1 : Fin 2) * 64 + 1 * (y 1).val = (y 1).val; rw [e1]; omega

/-- The bias row's one block is the bias row, at every point. -/
theorem bp_block (c : Dev nD) (t : Fin cfg1.N) (y : S1x64.Idx) :
    (iblk1 V c 3 t : Vec Ideal S1x64 .f32) y = bp V c y := by
  obtain ⟨-, -, -, -, -, -, e0, e1, -⟩ := blockIndex t
  unfold iblk1
  rw [View.read_apply]
  show V c main_v40 _ = V c main_v40 _
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 64 + 1 * (y 1).val = (y 1).val; rw [e1]; omega

/-! ## What one grid point writes back -/

/-- The output block's element `(p, q)` at point `t` sits at row `t · 5000 + p`, column `q` of the array. -/
theorem out_emb (t : Fin cfg1.N) (p : Fin 5000) (q : Fin 64) :
    ((((cfg1.win 4).blk t).view.emb (ix2 p q) : S50000x64.Idx) 0).val = t.val * 5000 + p.val
    ∧ ((((cfg1.win 4).blk t).view.emb (ix2 p q) : S50000x64.Idx) 1).val = q.val := by
  obtain ⟨-, -, -, -, -, -, -, -, e0, e1⟩ := blockIndex t
  constructor
  · show win1_4.index t (0 : Fin 2) * 5000 + 1 * p.val = _; rw [e0]; omega
  · show win1_4.index t (1 : Fin 2) * 64 + 1 * q.val = _; rw [e1]; omega

/-- Point `t` writes back block `t` of `projected`: the body's element at `(p, q)`, with each loaded block read
    where the output block's place in the array says. -/
theorem flushed_eq (c : Dev nD) (t : Fin cfg1.N) :
    (dat1 (F := Ideal) V c).flushed 4 t = ((cfg1.win 4).blk t).view.read (Elt Ideal) (projected V c) := by
  show (cfg1.win 4).cut (grid1.coords t) ((dat1 (F := Ideal) V c).after 4 t) = _
  rw [after1_4]
  unfold out1_4
  rw [View.canon_unit_zero zeros2]
  simp only [View.ld_unit_zero (S := S5000x64) zeros2, View.ld_unit_zero (S := S64x64) zeros2,
    View.ld_unit_zero (S := S1x64) zeros2]
  funext j
  obtain ⟨p, q, rfl⟩ : ∃ (p : Fin 5000) (q : Fin 64), j = ix2 p q := ⟨j 0, j 1, eq_ix2 j⟩
  obtain ⟨r0, r1⟩ := out_emb t p q
  refine (body_apply (iblk1 V c 0 t) (iblk1 V c 2 t) (iblk1 V c 3 t) (iblk1 V c 1 t) p q).trans ?_
  show _ = projected V c (((cfg1.win 4).blk t).view.emb (ix2 p q))
  unfold projected
  rw [bp_block V c t, aggr_block V c t (ix2 p q) (((cfg1.win 4).blk t).view.emb (ix2 p q)) r0 r1]
  refine congrArg (· + _) (congrArg₂ (· + ·) (Finset.sum_congr rfl fun k _ => ?_) ?_)
  · rw [wp_block V c t, nodes_block V c t (ix2 p k) (ix2 ((((cfg1.win 4).blk t).view.emb (ix2 p q) : S50000x64.Idx) 0) k) r0 rfl]
    exact congrArg (_ * wp V c ·) (funext fun d => Fin.ext (by
      match d with
      | ⟨0, _⟩ => rfl
      | ⟨1, _⟩ => exact r1.symm))
  · exact congrArg (bp V c) (funext fun d => Fin.ext (by
      match d with
      | ⟨0, _⟩ => rfl
      | ⟨1, _⟩ => exact r1.symm))

/-! ## The ten blocks tile the array -/

/-- An index of the array is in point `t`'s block iff each coordinate is in the block's range on its axis. -/
theorem mem_block (t : Fin cfg1.N) (i : S50000x64.Idx) :
    i ∈ ((cfg1.win 4).blk t).view.set ↔
      ∀ a : Fin 2, win1_4.index t a * S5000x64.size a ≤ (i a).val ∧ (i a).val < win1_4.index t a * S5000x64.size a + S5000x64.size a := by
  show i ∈ ((View.whole main_v45).slice (win1_4.rect t)).set ↔ _
  rw [View.set_slice_whole, Rect.mem_set_unit]
  exact Iff.rfl

/-- Row `r` is in the block of point `r / 5000`. -/
theorem covered (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  have ht : t.val = (i 0).val / 5000 := rfl
  obtain ⟨-, -, -, -, -, -, -, -, e0, e1⟩ := blockIndex t
  refine ⟨t, flush1_4 t, ?_⟩
  rw [mem_block]
  intro a
  match a with
  | ⟨0, _⟩ =>
    show win1_4.index t (0 : Fin 2) * 5000 ≤ (i 0).val ∧ (i 0).val < win1_4.index t (0 : Fin 2) * 5000 + 5000
    rw [e0, ht]; omega
  | ⟨1, _⟩ =>
    show win1_4.index t (1 : Fin 2) * 64 ≤ (i 1).val ∧ (i 1).val < win1_4.index t (1 : Fin 2) * 64 + 64
    rw [e1]; omega

/-! ## The array the region leaves -/

/-- After its ten points the region's output array is `projected` of the arrays it found. -/
theorem region1_value (c : Dev nD) : (dat1 (F := Ideal) V c).arrAt 4 cfg1.N = projected V c :=
  (dat1 (F := Ideal) V c).arrAt_eq_of_cover 4 (projected V c) (fun t _ => flushed_eq V c t) (covered)

end Cert.KernelIdeal.Proj

end
-- ==== Proof.RefSpec.lean ====
/-
  The reference program, read at an index and identified with the specification of one edge.

  Each operation of the reference's main function is a stage of the argument arrays; read at an index it is a scalar
  expression in its operands at an index. Following the stages from the distance of an edge to its message gives, layer
  by layer, the specification's radial network, edge network and cutoff:

    message e f = ef P (gathered feature row of e) (distance of e) f,

  where `P` names the weight arrays entry by entry. The reference spells the activation as
  `z * (1 / (1 + exp (-z)))` with the ones as single-precision literals, the mask as the unsigned reading of the
  comparison's bit, and the first edge layer as one 68-term product against the concatenation of the feature row and
  the four radial numbers; the 68-term sum splits into its 64 feature terms and its 4 radial terms. The three gathers
  and the scatter stay opaque: the message is a function of the gathered row and the distance, and the result is the
  node projection plus the scattered messages.
-/
import proofs.«109811_j72164040507424_1_alg».proof.Proof.Gen.ReferenceIdeal.Read
import proofs.«109811_j72164040507424_1_alg».proof.Proof.Spec
import Idealize.ShloMosaic.Lib.ValueIdx
import Idealize.ShloMosaic.Lib.Pipeline.Value
import Idealize.ShloMosaic.PureOps.Ideal.Laws
import Mathlib.Algebra.BigOperators.Fin

noncomputable section

namespace Cert.ReferenceIdeal.RefSpec

open Cert.ReferenceIdeal Cert.ReferenceIdeal.Gen Idealize.ShloMosaic Idealize.ShloMosaic.ValueIdx
open Finset BigOperators

variable (x0 : FVec Ideal S50000x64 .f32) (x1 : IVec S2x800000 32) (x2 : FVec Ideal S50000x3 .f32)
  (x3 : FVec Ideal S64x64 .f32) (x4 : FVec Ideal S64 .f32)
  (x5 : FVec Ideal S68x64 .f32) (x6 : FVec Ideal S64 .f32) (x7 : FVec Ideal S64x64 .f32) (x8 : FVec Ideal S64 .f32)
  (x9 : FVec Ideal S1x16 .f32) (x10 : FVec Ideal S16 .f32) (x11 : FVec Ideal S16x4 .f32) (x12 : FVec Ideal S4 .f32)

/-- The activation as the reference spells it: the argument times one over one plus the exponential of its negative. -/
def act (z : EReal) : EReal :=
  z * Ideal.div (Ideal.ofBits .f32 0x3F800000#32) (Ideal.ofBits .f32 0x3F800000#32 + Ideal.exp (-z))

/-- The unsigned reading of a comparison's bit, at the extended reals. -/
theorem uitofp_at {w : Nat} (b : BitVec w) : FloatOps.uitofp (F := Ideal) .f32 b = ((b.toNat : ℝ) : EReal) := rfl

/-- The comparison of two extended reals. -/
theorem cmpf_at (p : CmpFPredicate) (x y : EReal) : FloatOps.cmpf (F := Ideal) (φ := .f32) p x y = Ideal.cmp p x y := rfl

/-! ### The radial network -/

/-- The radial hidden layer before its activation: the distance times the one weight row, plus the bias. -/
theorem v26_at (e : Fin 800000) (j : Fin 16) :
    Read.val_main_v26 (F := Ideal) x1 x2 x9 x10 (ix2 e j)
      = Read.val_main_v19 (F := Ideal) x1 x2 (ix2 e 0) * x9 (ix2 0 j) + x10 (ix1 j) := by
  have el : Read.lidx_main_v23 (ix2 e j) 0 = ix2 e 0 :=
    funext fun a => Fin.ext (by match a with | ⟨0, _⟩ => rfl | ⟨1, _⟩ => rfl)
  have er : Read.ridx_main_v23 (ix2 e j) 0 = ix2 0 j :=
    funext fun a => Fin.ext (by match a with | ⟨0, _⟩ => rfl | ⟨1, _⟩ => rfl)
  have eb : Read.idx_main_v24 (Read.idx_main_v25 (ix2 e j)) = ix1 j :=
    funext fun a => Fin.ext (by match a with | ⟨0, _⟩ => rfl)
  rw [Read.val_main_v26_apply, Read.val_main_v23_apply, Read.val_main_v25_apply, Read.val_main_v24_apply,
    Fin.sum_univ_one, el, er, eb]
  rfl

theorem v27_at (e : Fin 800000) (j : Fin 16) :
    Read.val_main_v27 (F := Ideal) x1 x2 x9 x10 (ix2 e j)
      = act (Read.val_main_v26 (F := Ideal) x1 x2 x9 x10 (ix2 e j)) := by
  rw [Read.val_main_v27_apply, Read.val_main_call1_v5_apply, Read.val_main_call1_v4_apply,
    Read.val_main_call1_cst_0_apply, Read.val_main_call1_v3_apply, Read.val_main_call1_v2_apply,
    Read.val_main_call1_cst_apply, Read.val_main_call1_v1_apply, Read.val_main_call1_v0_apply]
  simp only [act, Ideal.mulf_def, Ideal.hostDivf_def, Ideal.addf_def, Ideal.hostUnary_exp_def, Ideal.hostNegf_def,
    Ideal.negf_def, Ideal.ofBits_def]

/-- The radial output layer before its activation. -/
theorem v31_at (e : Fin 800000) (k : Fin 4) :
    Read.val_main_v31 (F := Ideal) x1 x2 x9 x10 x11 x12 (ix2 e k)
      = (∑ j : Fin 16, Read.val_main_v27 (F := Ideal) x1 x2 x9 x10 (ix2 e j) * x11 (ix2 j k)) + x12 (ix1 k) := by
  have el : ∀ j : Fin 16, Read.lidx_main_v28 (ix2 e k) j = ix2 e j := fun j =>
    funext fun a => Fin.ext (by match a with | ⟨0, _⟩ => rfl | ⟨1, _⟩ => rfl)
  have er : ∀ j : Fin 16, Read.ridx_main_v28 (ix2 e k) j = ix2 j k := fun j =>
    funext fun a => Fin.ext (by match a with | ⟨0, _⟩ => rfl | ⟨1, _⟩ => rfl)
  have eb : Read.idx_main_v29 (Read.idx_main_v30 (ix2 e k)) = ix1 k :=
    funext fun a => Fin.ext (by match a with | ⟨0, _⟩ => rfl)
  rw [Read.val_main_v31_apply, Read.val_main_v28_apply, Read.val_main_v30_apply, Read.val_main_v29_apply, eb]
  simp only [el, er, Ideal.addf_def]

theorem v32_at (e : Fin 800000) (k : Fin 4) :
    Read.val_main_v32 (F := Ideal) x1 x2 x9 x10 x11 x12 (ix2 e k)
      = act (Read.val_main_v31 (F := Ideal) x1 x2 x9 x10 x11 x12 (ix2 e k)) := by
  rw [Read.val_main_v32_apply, Read.val_main_call2_v5_apply, Read.val_main_call2_v4_apply,
    Read.val_main_call2_cst_0_apply, Read.val_main_call2_v3_apply, Read.val_main_call2_v2_apply,
    Read.val_main_call2_cst_apply, Read.val_main_call2_v1_apply, Read.val_main_call2_v0_apply]
  simp only [act, Ideal.mulf_def, Ideal.hostDivf_def, Ideal.addf_def, Ideal.hostUnary_exp_def, Ideal.hostNegf_def,
    Ideal.negf_def, Ideal.ofBits_def]

/-! ### The concatenation of the feature row and the radial numbers -/

/-- A column below 64 of the concatenation is the gathered feature row's. -/
theorem v40_left (e : Fin 800000) (k : Fin 64) :
    Read.val_main_v40 (F := Ideal) x0 x1 x2 x9 x10 x11 x12 (ix2 e (Fin.castAdd 4 k))
      = Read.val_main_v39 (F := Ideal) x0 x1 (ix2 e k) := by
  unfold Read.val_main_v40
  exact concatenate_pair_apply_left 1 _ _ concatenates_S800000x64_S800000x4_S800000x68_d1
    (ix2 e (Fin.castAdd 4 k)) rfl (ix2 e k) (fun b => match b with | ⟨0, _⟩ => rfl | ⟨1, _⟩ => rfl)

/-- Column `64 + k` of the concatenation is the radial network's `k`-th output. -/
theorem v40_right (e : Fin 800000) (k : Fin 4) :
    Read.val_main_v40 (F := Ideal) x0 x1 x2 x9 x10 x11 x12 (ix2 e (Fin.natAdd 64 k))
      = Read.val_main_v32 (F := Ideal) x1 x2 x9 x10 x11 x12 (ix2 e k) := by
  unfold Read.val_main_v40
  exact concatenate_pair_apply_right 1 _ _ concatenates_S800000x64_S800000x4_S800000x68_d1
    (ix2 e (Fin.natAdd 64 k)) rfl rfl (ix2 e k)
    (fun b => match b with | ⟨0, _⟩ => fun _ => rfl | ⟨1, _⟩ => fun h => absurd rfl h)
    (by show k.val + 64 = 64 + k.val; omega)

/-! ### The edge network -/

/-- The edge network's hidden layer before its activation: the 68-term product split into its 64 feature terms and
    its 4 radial terms. -/
theorem v44_at (e : Fin 800000) (f : Fin 64) :
    Read.val_main_v44 (F := Ideal) x0 x1 x2 x5 x6 x9 x10 x11 x12 (ix2 e f)
      = ((∑ k : Fin 64, Read.val_main_v39 (F := Ideal) x0 x1 (ix2 e k) * x5 (ix2 (Fin.castAdd 4 k) f))
          + ∑ k : Fin 4, Read.val_main_v32 (F := Ideal) x1 x2 x9 x10 x11 x12 (ix2 e k) * x5 (ix2 (Fin.natAdd 64 k) f))
        + x6 (ix1 f) := by
  have el : ∀ k : Fin 68, Read.lidx_main_v41 (ix2 e f) k = ix2 e k := fun k =>
    funext fun a => Fin.ext (by match a with | ⟨0, _⟩ => rfl | ⟨1, _⟩ => rfl)
  have er : ∀ k : Fin 68, Read.ridx_main_v41 (ix2 e f) k = ix2 k f := fun k =>
    funext fun a => Fin.ext (by match a with | ⟨0, _⟩ => rfl | ⟨1, _⟩ => rfl)
  have eb : Read.idx_main_v42 (Read.idx_main_v43 (ix2 e f)) = ix1 f :=
    funext fun a => Fin.ext (by match a with | ⟨0, _⟩ => rfl)
  rw [Read.val_main_v44_apply, Read.val_main_v41_apply, Read.val_main_v43_apply, Read.val_main_v42_apply, eb]
  simp only [el, er, Ideal.addf_def]
  rw [Fin.sum_univ_add (a := 64) (b := 4)]
  simp only [v40_left, v40_right]

theorem v45_at (e : Fin 800000) (f : Fin 64) :
    Read.val_main_v45 (F := Ideal) x0 x1 x2 x5 x6 x9 x10 x11 x12 (ix2 e f)
      = act (Read.val_main_v44 (F := Ideal) x0 x1 x2 x5 x6 x9 x10 x11 x12 (ix2 e f)) := by
  rw [Read.val_main_v45_apply, Read.val_main_call3_v5_apply, Read.val_main_call3_v4_apply,
    Read.val_main_call3_cst_0_apply, Read.val_main_call3_v3_apply, Read.val_main_call3_v2_apply,
    Read.val_main_call3_cst_apply, Read.val_main_call3_v1_apply, Read.val_main_call3_v0_apply]
  simp only [act, Ideal.mulf_def, Ideal.hostDivf_def, Ideal.addf_def, Ideal.hostUnary_exp_def, Ideal.hostNegf_def,
    Ideal.negf_def, Ideal.ofBits_def]

/-- The edge network's output layer before its activation. -/
theorem v49_at (e : Fin 800000) (f : Fin 64) :
    Read.val_main_v49 (F := Ideal) x0 x1 x2 x5 x6 x7 x8 x9 x10 x11 x12 (ix2 e f)
      = (∑ k : Fin 64, Read.val_main_v45 (F := Ideal) x0 x1 x2 x5 x6 x9 x10 x11 x12 (ix2 e k) * x7 (ix2 k f))
        + x8 (ix1 f) := by
  have el : ∀ k : Fin 64, Read.lidx_main_v46 (ix2 e f) k = ix2 e k := fun k =>
    funext fun a => Fin.ext (by match a with | ⟨0, _⟩ => rfl | ⟨1, _⟩ => rfl)
  have er : ∀ k : Fin 64, Read.ridx_main_v46 (ix2 e f) k = ix2 k f := fun k =>
    funext fun a => Fin.ext (by match a with | ⟨0, _⟩ => rfl | ⟨1, _⟩ => rfl)
  have eb : Read.idx_main_v47 (Read.idx_main_v48 (ix2 e f)) = ix1 f :=
    funext fun a => Fin.ext (by match a with | ⟨0, _⟩ => rfl)
  rw [Read.val_main_v49_apply, Read.val_main_v46_apply, Read.val_main_v48_apply, Read.val_main_v47_apply, eb]
  simp only [el, er, Ideal.addf_def]

theorem v50_at (e : Fin 800000) (f : Fin 64) :
    Read.val_main_v50 (F := Ideal) x0 x1 x2 x5 x6 x7 x8 x9 x10 x11 x12 (ix2 e f)
      = act (Read.val_main_v49 (F := Ideal) x0 x1 x2 x5 x6 x7 x8 x9 x10 x11 x12 (ix2 e f)) := by
  rw [Read.val_main_v50_apply, Read.val_main_call4_v5_apply, Read.val_main_call4_v4_apply,
    Read.val_main_call4_cst_0_apply, Read.val_main_call4_v3_apply, Read.val_main_call4_v2_apply,
    Read.val_main_call4_cst_apply, Read.val_main_call4_v1_apply, Read.val_main_call4_v0_apply]
  simp only [act, Ideal.mulf_def, Ideal.hostDivf_def, Ideal.addf_def, Ideal.hostUnary_exp_def, Ideal.hostNegf_def,
    Ideal.negf_def, Ideal.ofBits_def]

/-! ### The cutoff -/

/-- The cutoff factor of an edge: the clipped parabola of the distance over ten, times the comparison's bit. -/
theorem v57_at (e : Fin 800000) :
    Read.val_main_v57 (F := Ideal) x1 x2 (ix2 e 0)
      = min (Ideal.ofBits .f32 0x3F800000#32) (max (Ideal.ofBits .f32 0x00000000#32)
          (Ideal.ofBits .f32 0x3F800000#32
            - Ideal.div (Read.val_main_v19 (F := Ideal) x1 x2 (ix2 e 0)) (Ideal.ofBits .f32 0x41200000#32)
              * Ideal.div (Read.val_main_v19 (F := Ideal) x1 x2 (ix2 e 0)) (Ideal.ofBits .f32 0x41200000#32)))
        * (((Ideal.cmp .olt (Read.val_main_v19 (F := Ideal) x1 x2 (ix2 e 0)) (Ideal.ofBits .f32 0x41200000#32)).toNat : ℝ) : EReal) := by
  rw [Read.val_main_v57_apply, Read.val_main_v56_apply, Read.val_main_call5_v4_apply, Read.val_main_call5_v3_apply,
    Read.val_main_cst_8_apply, Read.val_main_call5_v2_apply, Read.val_main_call5_v1_apply, Read.val_main_call5_v0_apply,
    Read.val_main_cst_7_apply, Read.val_main_v55_apply, Read.val_main_v54_apply, Read.val_main_cst_6_apply,
    Read.val_main_v53_apply, Read.val_main_v52_apply, Read.val_main_v51_apply, Read.val_main_cst_5_apply,
    Read.val_main_v22_apply, Read.val_main_v21_apply, Read.val_main_v20_apply, Read.val_main_cst_apply]
  simp only [uitofp_at, cmpf_at, Ideal.mulf_def, Ideal.minimumf_def, Ideal.maximumf_def, Ideal.subf_def,
    Ideal.hostDivf_def, Ideal.ofBits_def]

/-- The message before the specification is recognised in it. -/
theorem v59_at (e : Fin 800000) (f : Fin 64) :
    Read.val_main_v59 (F := Ideal) x0 x1 x2 x5 x6 x7 x8 x9 x10 x11 x12 (ix2 e f)
      = Read.val_main_v50 (F := Ideal) x0 x1 x2 x5 x6 x7 x8 x9 x10 x11 x12 (ix2 e f)
        * Read.val_main_v57 (F := Ideal) x1 x2 (ix2 e 0) := by
  have eb : Read.idx_main_v58 (ix2 e f) = ix2 e 0 :=
    funext fun a => Fin.ext (by match a with | ⟨0, _⟩ => rfl | ⟨1, _⟩ => rfl)
  rw [Read.val_main_v59_apply, Read.val_main_v58_apply, eb]
  rfl

/-! ### The specification recognised in the reference -/

/-- The weights, entry by entry, as the specification names them: the first-layer matrix of the edge network split
    into the 64 rows that meet the features and the 4 rows that meet the radial numbers. -/
def params (x5 : FVec Ideal S68x64 .f32) (x6 : FVec Ideal S64 .f32) (x7 : FVec Ideal S64x64 .f32)
    (x8 : FVec Ideal S64 .f32) (x9 : FVec Ideal S1x16 .f32) (x10 : FVec Ideal S16 .f32)
    (x11 : FVec Ideal S16x4 .f32) (x12 : FVec Ideal S4 .f32) : Cert.EdgeNet.Params :=
  { wr1 := fun j => x9 (ix2 0 j), br1 := fun j => x10 (ix1 j), wr2 := fun j k => x11 (ix2 j k),
    br2 := fun k => x12 (ix1 k), w1a := fun k f => x5 (ix2 (Fin.castAdd 4 k) f),
    w1b := fun k f => x5 (ix2 (Fin.natAdd 64 k) f), b1 := fun f => x6 (ix1 f), w2 := fun k f => x7 (ix2 k f),
    b2 := fun f => x8 (ix1 f) }

/-- The spelled-out activation is the specification's. -/
theorem act_eq (z : EReal) : act z = Cert.EdgeNet.silu z := by
  unfold act Cert.EdgeNet.silu
  rw [Cert.EdgeNet.logistic_spelled]

/-- The radial network's hidden layer. -/
theorem r1_at (e : Fin 800000) (j : Fin 16) :
    Read.val_main_v27 (F := Ideal) x1 x2 x9 x10 (ix2 e j)
      = Cert.EdgeNet.r1 (params x5 x6 x7 x8 x9 x10 x11 x12) (Read.val_main_v19 (F := Ideal) x1 x2 (ix2 e 0)) j := by
  rw [v27_at, v26_at, act_eq]
  rfl

/-- The radial network's four outputs. -/
theorem rad_at (e : Fin 800000) (k : Fin 4) :
    Read.val_main_v32 (F := Ideal) x1 x2 x9 x10 x11 x12 (ix2 e k)
      = Cert.EdgeNet.rad (params x5 x6 x7 x8 x9 x10 x11 x12) (Read.val_main_v19 (F := Ideal) x1 x2 (ix2 e 0)) k := by
  rw [v32_at, v31_at, act_eq]
  simp only [r1_at x1 x2 x5 x6 x7 x8 x9 x10 x11 x12]
  rfl

/-- The edge network's hidden layer. -/
theorem h1_at (e : Fin 800000) (f : Fin 64) :
    Read.val_main_v45 (F := Ideal) x0 x1 x2 x5 x6 x9 x10 x11 x12 (ix2 e f)
      = Cert.EdgeNet.h1 (params x5 x6 x7 x8 x9 x10 x11 x12)
          (fun k => Read.val_main_v39 (F := Ideal) x0 x1 (ix2 e k))
          (Read.val_main_v19 (F := Ideal) x1 x2 (ix2 e 0)) f := by
  rw [v45_at, v44_at, act_eq]
  simp only [rad_at x1 x2 x5 x6 x7 x8 x9 x10 x11 x12]
  rfl

/-- The cutoff factor. -/
theorem cut_at (e : Fin 800000) :
    Read.val_main_v57 (F := Ideal) x1 x2 (ix2 e 0)
      = Cert.EdgeNet.cut (Read.val_main_v19 (F := Ideal) x1 x2 (ix2 e 0)) := by
  rw [v57_at, Cert.EdgeNet.one_eq, Cert.EdgeNet.zero_eq]
  unfold Cert.EdgeNet.cut
  rw [← Cert.EdgeNet.mask_of_unsigned_bit]
  rfl

/-- The message of edge `e`, read at feature `f`, is the specification's message of the edge's gathered feature row
    and its distance. -/
theorem message_apply (e : Fin 800000) (f : Fin 64) :
    Read.val_main_v59 (F := Ideal) x0 x1 x2 x5 x6 x7 x8 x9 x10 x11 x12 (ix2 e f)
      = Cert.EdgeNet.ef (params x5 x6 x7 x8 x9 x10 x11 x12)
          (fun k => Read.val_main_v39 (F := Ideal) x0 x1 (ix2 e k))
          (Read.val_main_v19 (F := Ideal) x1 x2 (ix2 e 0)) f := by
  rw [v59_at, v50_at, v49_at, act_eq, cut_at]
  simp only [h1_at x0 x1 x2 x5 x6 x7 x8 x9 x10 x11 x12]
  rfl

/-! ### The result: the node projection plus the scattered messages -/

/-- The result at node `n`, feature `f`. -/
theorem result_at (n : Fin 50000) (f : Fin 64) :
    Read.val_main_v67 (F := Ideal) x0 x1 x2 x3 x4 x5 x6 x7 x8 x9 x10 x11 x12 (ix2 n f)
      = ((∑ k : Fin 64, x0 (ix2 n k) * x3 (ix2 k f)) + x4 (ix1 f))
        + Read.val_main_v62 (F := Ideal) x0 x1 x2 x5 x6 x7 x8 x9 x10 x11 x12 (ix2 n f) := by
  have el : ∀ k : Fin 64, Read.lidx_main_v63 (ix2 n f) k = ix2 n k := fun k =>
    funext fun a => Fin.ext (by match a with | ⟨0, _⟩ => rfl | ⟨1, _⟩ => rfl)
  have er : ∀ k : Fin 64, Read.ridx_main_v63 (ix2 n f) k = ix2 k f := fun k =>
    funext fun a => Fin.ext (by match a with | ⟨0, _⟩ => rfl | ⟨1, _⟩ => rfl)
  have eb : Read.idx_main_v64 (Read.idx_main_v65 (ix2 n f)) = ix1 f :=
    funext fun a => Fin.ext (by match a with | ⟨0, _⟩ => rfl)
  rw [Read.val_main_v67_apply, Read.val_main_v66_apply, Read.val_main_v63_apply, Read.val_main_v65_apply,
    Read.val_main_v64_apply, eb]
  simp only [el, er, Ideal.addf_def]

/-- The same at any index of the result. -/
theorem result_apply (i : S50000x64.Idx) :
    Read.val_main_v67 (F := Ideal) x0 x1 x2 x3 x4 x5 x6 x7 x8 x9 x10 x11 x12 i
      = ((∑ k : Fin 64, x0 (ix2 (i 0) k) * x3 (ix2 k (i 1))) + x4 (ix1 (i 1)))
        + Read.val_main_v62 (F := Ideal) x0 x1 x2 x5 x6 x7 x8 x9 x10 x11 x12 i := by
  obtain ⟨n, f, rfl⟩ : ∃ (n : Fin 50000) (f : Fin 64), i = ix2 n f := ⟨i 0, i 1, eq_ix2 i⟩
  exact result_at x0 x1 x2 x3 x4 x5 x6 x7 x8 x9 x10 x11 x12 n f

end Cert.ReferenceIdeal.RefSpec

end
-- ==== Proof.HostEntry.lean ====
/-
  What the first region finds in its input arrays, entry by entry.

  Before the first region runs, the host has gathered the feature rows and the end points' positions by the
  edge list, taken the distance of each edge, padded the 800000 edge rows to 802816 (feature rows with zeros,
  distances with the literal 10⁹), and cut and reshaped the weights. Each of the region's input arrays is read
  here at an index and expressed by the launch arrays and by the stages of the reference, which does the same
  gathers and the same distance on the same arguments.
-/
import proofs.«109811_j72164040507424_1_alg».proof.Proof.Gen.KernelIdeal.Frame
import proofs.«109811_j72164040507424_1_alg».proof.Proof.Gen.ReferenceIdeal.Read
import proofs.«109811_j72164040507424_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.HostEntry

open Cert.KernelIdeal Cert.KernelIdeal.Gen
open Idealize.ShloMosaic Idealize.ShloMosaic.TcCoe Idealize.ShloMosaic.ValueIdx
open Idealize.SL.Sem

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-! ### The launch arrays -/

abbrev arg0 : FVec Ideal Cert.KernelIdeal.S50000x64 .f32 := m ((c : Thread nD τ).loc main_arg0)
abbrev arg1 : IVec Cert.KernelIdeal.S2x800000 32 := m ((c : Thread nD τ).loc main_arg1)
abbrev arg2 : FVec Ideal Cert.KernelIdeal.S50000x3 .f32 := m ((c : Thread nD τ).loc main_arg2)
abbrev arg3 : FVec Ideal Cert.KernelIdeal.S64x64 .f32 := m ((c : Thread nD τ).loc main_arg3)
abbrev arg4 : FVec Ideal Cert.KernelIdeal.S64 .f32 := m ((c : Thread nD τ).loc main_arg4)
abbrev arg5 : FVec Ideal Cert.KernelIdeal.S68x64 .f32 := m ((c : Thread nD τ).loc main_arg5)
abbrev arg6 : FVec Ideal Cert.KernelIdeal.S64 .f32 := m ((c : Thread nD τ).loc main_arg6)
abbrev arg7 : FVec Ideal Cert.KernelIdeal.S64x64 .f32 := m ((c : Thread nD τ).loc main_arg7)
abbrev arg8 : FVec Ideal Cert.KernelIdeal.S64 .f32 := m ((c : Thread nD τ).loc main_arg8)
abbrev arg9 : FVec Ideal Cert.KernelIdeal.S1x16 .f32 := m ((c : Thread nD τ).loc main_arg9)
abbrev arg10 : FVec Ideal Cert.KernelIdeal.S16 .f32 := m ((c : Thread nD τ).loc main_arg10)
abbrev arg11 : FVec Ideal Cert.KernelIdeal.S16x4 .f32 := m ((c : Thread nD τ).loc main_arg11)
abbrev arg12 : FVec Ideal Cert.KernelIdeal.S4 .f32 := m ((c : Thread nD τ).loc main_arg12)

/-! ### A buffer that no host operation before the first region writes holds what it held at launch -/

/-- Closes "no operation of this stretch writes the buffer": the stretch spelled out, each operation's written
    buffer compared with the one asked about. -/
local macro "not_written" : tactic =>
  `(tactic| (refine List.forall_iff_forall_mem.mp ?_
             simp only [hostOps0, hostOps0_1, hostOps0_2, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

/-- Through the first two stretches (the gathers of the positions and the distance). -/
theorem W2_of_unwritten (r : Ref sig .tc)
    (h0 : ∀ op ∈ (hostOps0 : List (HloOp τ sig (Elt Ideal))), Proc.devRef (τ := τ) .tc r ∉ op.writes)
    (h1 : ∀ op ∈ (hostOps0_1 : List (HloOp τ sig (Elt Ideal))), Proc.devRef (τ := τ) .tc r ∉ op.writes) :
    W2 m ρ c (Proc.devRef .tc r) = m ((c : Thread nD τ).loc r) :=
  calc W2 m ρ c (Proc.devRef .tc r)
    _ = W1 m ρ c (Proc.devRef .tc r) := StableHlo.after_of_forall_not_mem (b := Proc.devRef .tc r) _ _ h1
    _ = W0 m ρ c (Proc.devRef .tc r) := StableHlo.after_of_forall_not_mem (b := Proc.devRef .tc r) _ _ h0
    _ = m ((c : Thread nD τ).loc r) := rfl

/-- Through all three stretches. -/
theorem W3_of_unwritten (r : Ref sig .tc)
    (h0 : ∀ op ∈ (hostOps0 : List (HloOp τ sig (Elt Ideal))), Proc.devRef (τ := τ) .tc r ∉ op.writes)
    (h1 : ∀ op ∈ (hostOps0_1 : List (HloOp τ sig (Elt Ideal))), Proc.devRef (τ := τ) .tc r ∉ op.writes)
    (h2 : ∀ op ∈ (hostOps0_2 : List (HloOp τ sig (Elt Ideal))), Proc.devRef (τ := τ) .tc r ∉ op.writes) :
    W3 m ρ c (Proc.devRef .tc r) = m ((c : Thread nD τ).loc r) :=
  (StableHlo.after_of_forall_not_mem (b := Proc.devRef .tc r) _ _ h2).trans (W2_of_unwritten m ρ c r h0 h1)

/-! ### The weights the region reads as launched -/

theorem wr1_eq : (Gen.V3 m ρ c main_arg9 : FVec Ideal S1x16 .f32) = arg9 m c :=
  W3_of_unwritten m ρ c main_arg9 (by not_written) (by not_written) (by not_written)
theorem wr2_eq : (Gen.V3 m ρ c main_arg11 : FVec Ideal S16x4 .f32) = arg11 m c :=
  W3_of_unwritten m ρ c main_arg11 (by not_written) (by not_written) (by not_written)
theorem w2_eq : (Gen.V3 m ρ c main_arg7 : FVec Ideal S64x64 .f32) = arg7 m c :=
  W3_of_unwritten m ρ c main_arg7 (by not_written) (by not_written) (by not_written)

/-! ### The biases, each a vector reshaped to one row -/

theorem v36_eq : (Gen.V3 m ρ c main_v36 : FVec Ideal S1x16 .f32) = shapeCast S1x16 (arg10 m c) shapeCasts_S16_S1x16 := by
  show StableHlo.after hostOps0_2 _ (Proc.devRef .tc main_v36) = _
  after_results
  rfl
theorem v37_eq : (Gen.V3 m ρ c main_v37 : FVec Ideal S1x4 .f32) = shapeCast S1x4 (arg12 m c) shapeCasts_S4_S1x4 := by
  show StableHlo.after hostOps0_2 _ (Proc.devRef .tc main_v37) = _
  after_results
  rfl
theorem v38_eq : (Gen.V3 m ρ c main_v38 : FVec Ideal S1x64 .f32) = shapeCast S1x64 (arg6 m c) shapeCasts_S64_S1x64 := by
  show StableHlo.after hostOps0_2 _ (Proc.devRef .tc main_v38) = _
  after_results
  rfl
theorem v39_eq : (Gen.V3 m ρ c main_v39 : FVec Ideal S1x64 .f32) = shapeCast S1x64 (arg8 m c) shapeCasts_S64_S1x64 := by
  show StableHlo.after hostOps0_2 _ (Proc.devRef .tc main_v39) = _
  after_results
  rfl

/-- A vector of `n` entries reshaped to one row: the row's entry `j` is the vector's entry `j`. -/
theorem row_of_vec {n : Nat} (x : (⟨1, ![n]⟩ : Shape).Idx → EReal) (h : (⟨1, ![n]⟩ : Shape).ShapeCasts ⟨2, ![1, n]⟩) (j : Fin n) :
    shapeCast (⟨2, ![1, n]⟩ : Shape) x h (ix2 0 j) = x (ix1 j) :=
  shapeCast_apply x h (ix2 0 j) (ix1 j) (by
    rw [Shape.rowMajor_val_two, Shape.rowMajor_val_one]
    show j.val = 0 * n + j.val
    omega)

theorem br1_at (j : Fin 16) : (Gen.V3 m ρ c main_v36 : FVec Ideal S1x16 .f32) (ix2 0 j) = arg10 m c (ix1 j) := by
  rw [v36_eq]; exact row_of_vec _ _ j
theorem br2_at (k : Fin 4) : (Gen.V3 m ρ c main_v37 : FVec Ideal S1x4 .f32) (ix2 0 k) = arg12 m c (ix1 k) := by
  rw [v37_eq]; exact row_of_vec _ _ k
theorem b1_at (f : Fin 64) : (Gen.V3 m ρ c main_v38 : FVec Ideal S1x64 .f32) (ix2 0 f) = arg6 m c (ix1 f) := by
  rw [v38_eq]; exact row_of_vec _ _ f
theorem b2_at (f : Fin 64) : (Gen.V3 m ρ c main_v39 : FVec Ideal S1x64 .f32) (ix2 0 f) = arg8 m c (ix1 f) := by
  rw [v39_eq]; exact row_of_vec _ _ f

/-! ### The first layer's weight matrix, cut into its first 64 rows and its last 4 -/

theorem v34_eq : (Gen.V3 m ρ c main_v34 : FVec Ideal S64x64 .f32)
    = extractStridedSlice S64x64 ![0, 0] (arg5 m c) slices_S68x64_S64x64_0_0 := by
  show StableHlo.after hostOps0_2 _ (Proc.devRef .tc main_v34) = _
  after_results
theorem v35_eq : (Gen.V3 m ρ c main_v35 : FVec Ideal S4x64 .f32)
    = extractStridedSlice S4x64 ![64, 0] (arg5 m c) slices_S68x64_S4x64_64_0 := by
  show StableHlo.after hostOps0_2 _ (Proc.devRef .tc main_v35) = _
  after_results

theorem w1a_at (k f : Fin 64) :
    (Gen.V3 m ρ c main_v34 : FVec Ideal S64x64 .f32) (ix2 k f) = arg5 m c (ix2 (Fin.castAdd 4 k) f) := by
  rw [v34_eq]
  exact extractStridedSlice_apply ![0, 0] (arg5 m c) slices_S68x64_S64x64_0_0 (ix2 k f) (ix2 (Fin.castAdd 4 k) f)
    (fun a => match a with
      | ⟨0, _⟩ => by show k.val = 0 + k.val; omega
      | ⟨1, _⟩ => by show f.val = 0 + f.val; omega)
theorem w1b_at (k : Fin 4) (f : Fin 64) :
    (Gen.V3 m ρ c main_v35 : FVec Ideal S4x64 .f32) (ix2 k f) = arg5 m c (ix2 (Fin.natAdd 64 k) f) := by
  rw [v35_eq]
  exact extractStridedSlice_apply ![64, 0] (arg5 m c) slices_S68x64_S4x64_64_0 (ix2 k f) (ix2 (Fin.natAdd 64 k) f)
    (fun a => match a with
      | ⟨0, _⟩ => by show 64 + k.val = 64 + k.val; rfl
      | ⟨1, _⟩ => by show f.val = 0 + f.val; omega)

/-! ### The distance column -/

/-- The padded distance column, whatever the buffers hold when the third stretch starts: the distances of the
    800000 edges with 2816 copies of the literal `10⁹` behind them, as one column. -/
theorem v33_of (V : Valuation τ sig (Elt Ideal)) :
    (StableHlo.after hostOps0_2 V (Proc.devRef .tc main_v33) : FVec Ideal S802816x1 .f32)
      = shapeCast S802816x1
          (concatenate S802816 0 [⟨S800000, (V (Proc.devRef .tc main_v19) : FVec Ideal S800000 .f32)⟩,
             ⟨S2816, broadcastInDim S2816 ![] bcast_S_S2816 (constant (F := Ideal) S_ .f32 0x4E6E6B28#32)⟩]
            concatenates_S800000_S2816_S802816_d0) shapeCasts_S802816_S802816x1 := by
  after_results
  rfl

/-- A column's entry `e` is the entry `e` of the vector it was reshaped from. -/
theorem col_of_vec {n : Nat} (x : (⟨1, ![n]⟩ : Shape).Idx → EReal) (h : (⟨1, ![n]⟩ : Shape).ShapeCasts ⟨2, ![n, 1]⟩) (e : Fin n) :
    shapeCast (⟨2, ![n, 1]⟩ : Shape) x h (ix2 e 0) = x (ix1 e) :=
  shapeCast_apply x h (ix2 e 0) (ix1 e) (by
    rw [Shape.rowMajor_val_two, Shape.rowMajor_val_one]
    show e.val = e.val * 1 + 0
    omega)

/-- A padding row's distance is the literal `10⁹`. -/
theorem dist_pad (e : Fin 802816) (h : 800000 ≤ e.val) :
    (Gen.V3 m ρ c main_v33 : FVec Ideal S802816x1 .f32) (ix2 e 0) = Cert.EdgeNet.far := by
  have e1 : (Gen.V3 m ρ c main_v33 : FVec Ideal S802816x1 .f32) = _ := v33_of (W2 m ρ c)
  rw [e1, col_of_vec]
  rw [concatenate_pair_apply_right (t := S802816) (s₁ := S800000) (s₂ := S2816) (0 : Fin 1) _ _
    concatenates_S800000_S2816_S802816_d0 (ix1 e) rfl rfl
    (ix1 (⟨e.val - 800000, by have := e.isLt; omega⟩ : Fin 2816))
    (fun b hb => absurd (Subsingleton.elim _ _) hb)
    (by show e.val - 800000 + 800000 = e.val; omega)]
  rfl

/-- The edges' position differences, as the first stretch leaves them: the gather of the positions by the
    edge list's second row less the gather by its first row, the same two gathers the reference takes. -/
theorem v18_eq : (W1 m ρ c (Proc.devRef .tc main_v18) : FVec Ideal S800000x3 .f32)
    = Cert.ReferenceIdeal.Read.val_main_v18 (F := Ideal) (arg1 m c) (arg2 m c) := by
  show StableHlo.after hostOps0 _ (Proc.devRef .tc main_v18) = _
  after_results_simp
  rfl

/-! ### The second stretch is a called function: its operations carry their buffers' types along, and moving
    contents to a buffer's own type and back is the identity -/

/-- There and back again at one typed reference. -/
theorem ofBuf_toBuf {T : BufTy} (x : StableHlo.TRef sig T) (v : T.Contents (Elt Ideal)) : x.ofBuf (x.toBuf v) = v := by
  obtain ⟨r, h1, h2, h3⟩ := x
  subst h1
  rfl

/-- The distance vector's buffer has the vector's type. -/
theorem toBuf_v19 (h1 h2 h3) (v : FVec Ideal S800000 .f32) :
    StableHlo.TRef.toBuf (Val := Elt Ideal) (StableHlo.TRef.of main_v19 h1 h2 h3 : StableHlo.TRef sig ⟨S800000, .f32⟩) v = v := rfl

/-- The position differences' buffer has the array's type. -/
theorem ofBuf_v18 (h1 h2 h3) (v : FVec Ideal S800000x3 .f32) :
    StableHlo.TRef.ofBuf (Val := Elt Ideal) (StableHlo.TRef.of main_v18 h1 h2 h3 : StableHlo.TRef sig ⟨S800000x3, .f32⟩) v = v := rfl

/-- The distances, whatever the buffers hold when the second stretch starts: the square root of each row's sum of
    squares of the position differences. -/
theorem v19_of (V : Valuation τ sig (Elt Ideal)) :
    (StableHlo.after hostOps0_1 V (Proc.devRef .tc main_v19) : FVec Ideal S800000 .f32)
      = Host.sqrt (Host.reduceAdd
          (mulf (V (Proc.devRef .tc main_v18) : FVec Ideal S800000x3 .f32) (V (Proc.devRef .tc main_v18)))
          (constant (F := Ideal) S_ .f32 0x00000000#32) reducesTo_S800000x3_S800000_d1 h_S_) := by
  after_results_simp
  simp only [ofBuf_toBuf]
  rw [toBuf_v19]
  rw [ofBuf_v18]

/-- The distances are the square roots of the reference's row sums of squares. -/
theorem v19_eq : (W2 m ρ c (Proc.devRef .tc main_v19) : FVec Ideal S800000 .f32)
    = (Host.sqrt (Cert.ReferenceIdeal.Read.val_main_call0_v1 (F := Ideal) (arg1 m c) (arg2 m c)) : FVec Ideal S800000 .f32) := by
  have e1 : (W2 m ρ c (Proc.devRef .tc main_v19) : FVec Ideal S800000 .f32) = _ := v19_of (W1 m ρ c)
  rw [e1, v18_eq]
  unfold Cert.ReferenceIdeal.Read.val_main_call0_v1 Cert.ReferenceIdeal.Read.val_main_call0_v0
    Cert.ReferenceIdeal.Read.val_main_call0_cst
  rfl

/-- The host's square root is taken entry by entry (stated over any arithmetic, where it is an unfolding). -/
theorem host_sqrt_apply {F : FTy → Type} [FloatOps F] {s : Shape} {φ : FTy} (x : FVec F s φ) (i : s.Idx) :
    Host.sqrt x i = FloatOps.hostUnary .sqrt (x i) := rfl

/-- An edge's distance is the reference's: the reference broadcasts the row sums to a column before taking the
    square root, the host here takes the square root first and makes the column after; both are the square root
    of the same row sum. -/
theorem dist_row (e : Fin 800000) :
    (Gen.V3 m ρ c main_v33 : FVec Ideal S802816x1 .f32) (ix2 (Fin.castLE (by norm_num) e) 0)
      = Cert.ReferenceIdeal.Read.val_main_v19 (F := Ideal) (arg1 m c) (arg2 m c) (ix2 e 0) := by
  have e1 : (Gen.V3 m ρ c main_v33 : FVec Ideal S802816x1 .f32) = _ := v33_of (W2 m ρ c)
  rw [e1, col_of_vec]
  rw [concatenate_pair_apply_left (t := S802816) (s₁ := S800000) (s₂ := S2816) (0 : Fin 1) _ _
    concatenates_S800000_S2816_S802816_d0 (ix1 (Fin.castLE (by norm_num) e)) rfl (ix1 e)
    (fun b => match b with | ⟨0, _⟩ => rfl)]
  rw [v19_eq, Cert.ReferenceIdeal.Read.val_main_v19_apply, Cert.ReferenceIdeal.Read.val_main_call0_v2_apply]
  have hi : Cert.ReferenceIdeal.Read.idx_main_call0_v2 (ix2 e 0) = ix1 e :=
    funext fun a => match a with | ⟨0, _⟩ => rfl
  rw [host_sqrt_apply, hi]

/-! ### The feature rows -/

/-- The padded feature rows: the reference's gather of the node features by the edge list's first row, with 2816
    rows of zeros behind. -/
theorem v28_eq : (Gen.V3 m ρ c main_v28 : FVec Ideal S802816x64 .f32)
    = concatenate S802816x64 0
        [⟨S800000x64, Cert.ReferenceIdeal.Read.val_main_v39 (F := Ideal) (arg0 m c) (arg1 m c)⟩,
         ⟨S2816x64, broadcastInDim S2816x64 ![] bcast_S_S2816x64 (constant (F := Ideal) S_ .f32 0x00000000#32)⟩]
        concatenates_S800000x64_S2816x64_S802816x64_d0 := by
  show StableHlo.after hostOps0_2 _ (Proc.devRef .tc main_v28) = _
  after_results_simp
  rfl

/-- An edge's feature row is the reference's gathered row. -/
theorem feats_row (e : Fin 800000) (k : Fin 64) :
    (Gen.V3 m ρ c main_v28 : FVec Ideal S802816x64 .f32) (ix2 (Fin.castLE (by norm_num) e) k)
      = Cert.ReferenceIdeal.Read.val_main_v39 (F := Ideal) (arg0 m c) (arg1 m c) (ix2 e k) := by
  rw [v28_eq]
  exact concatenate_pair_apply_left (t := S802816x64) (s₁ := S800000x64) (s₂ := S2816x64) (0 : Fin 2) _ _
    concatenates_S800000x64_S2816x64_S802816x64_d0 (ix2 (Fin.castLE (by norm_num) e) k) rfl (ix2 e k)
    (fun b => match b with | ⟨0, _⟩ => rfl | ⟨1, _⟩ => rfl)

end Cert.KernelIdeal.HostEntry

end
-- ==== Proof.HostMiddle.lean ====
/-
  Between the two grids: what the second grid finds in its four input arrays.

  After the first grid has left the per-edge messages in its output array, four host operations run: a zero
  array of 50000×64, the padded target-index row turned into a column of 802816 index words, and the
  scatter-add of the 802816 message rows into the zero array at the rows the index words name. The second grid
  then reads the node features and the projection matrix (arguments nothing has written), the bias as a
  1×64 row (a reshape made before the first grid), and that aggregate. Each is read here as a function of the
  launch arrays; the index column's first 800000 words are the reference's own target-index column.
-/
import proofs.«109811_j72164040507424_1_alg».proof.Proof.Gen.KernelIdeal.Frame
import proofs.«109811_j72164040507424_1_alg».proof.Proof.Gen.ReferenceIdeal.Read
import proofs.«109811_j72164040507424_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

set_option maxRecDepth 16384

noncomputable section

namespace Cert.KernelIdeal.HostMiddle

open Cert.KernelIdeal Cert.KernelIdeal.Gen
open Idealize.ShloMosaic Idealize.ShloMosaic.TcCoe Idealize.SL.Sem Idealize.ShloMosaic.StableHlo Idealize.ShloMosaic.ValueIdx

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-! ## The launch arrays, by name -/

abbrev arg0 : FVec Ideal Cert.KernelIdeal.S50000x64 .f32 := m ((c : Thread nD τ).loc main_arg0)
abbrev arg1 : IVec Cert.KernelIdeal.S2x800000 32 := m ((c : Thread nD τ).loc main_arg1)
abbrev arg2 : FVec Ideal Cert.KernelIdeal.S50000x3 .f32 := m ((c : Thread nD τ).loc main_arg2)
abbrev arg3 : FVec Ideal Cert.KernelIdeal.S64x64 .f32 := m ((c : Thread nD τ).loc main_arg3)
abbrev arg4 : FVec Ideal Cert.KernelIdeal.S64 .f32 := m ((c : Thread nD τ).loc main_arg4)
abbrev arg5 : FVec Ideal Cert.KernelIdeal.S68x64 .f32 := m ((c : Thread nD τ).loc main_arg5)
abbrev arg6 : FVec Ideal Cert.KernelIdeal.S64 .f32 := m ((c : Thread nD τ).loc main_arg6)
abbrev arg7 : FVec Ideal Cert.KernelIdeal.S64x64 .f32 := m ((c : Thread nD τ).loc main_arg7)
abbrev arg8 : FVec Ideal Cert.KernelIdeal.S64 .f32 := m ((c : Thread nD τ).loc main_arg8)
abbrev arg9 : FVec Ideal Cert.KernelIdeal.S1x16 .f32 := m ((c : Thread nD τ).loc main_arg9)
abbrev arg10 : FVec Ideal Cert.KernelIdeal.S16 .f32 := m ((c : Thread nD τ).loc main_arg10)
abbrev arg11 : FVec Ideal Cert.KernelIdeal.S16x4 .f32 := m ((c : Thread nD τ).loc main_arg11)
abbrev arg12 : FVec Ideal Cert.KernelIdeal.S4 .f32 := m ((c : Thread nD τ).loc main_arg12)

/-! ## An argument's array is as launched when region 1 is entered

No host operation writes an argument and region 0 leaves its inputs as entered. -/

theorem W5_main_arg0 : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
      simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg0) := StableHlo.after_of_forall_not_mem (b := Proc.devRef .tc main_arg0) _ _ (List.forall_iff_forall_mem.mp (by
      simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg0) := StableHlo.after_of_forall_not_mem (b := Proc.devRef .tc main_arg0) _ _ (List.forall_iff_forall_mem.mp (by
      simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg0) := rfl

theorem W5_main_arg3 : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
      simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg3) := StableHlo.after_of_forall_not_mem (b := Proc.devRef .tc main_arg3) _ _ (List.forall_iff_forall_mem.mp (by
      simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg3) := StableHlo.after_of_forall_not_mem (b := Proc.devRef .tc main_arg3) _ _ (List.forall_iff_forall_mem.mp (by
      simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl

theorem nodes_eq : (Gen.V5 m ρ c main_arg0 : FVec Ideal S50000x64 .f32) = arg0 m c := W5_main_arg0 m ρ c

theorem wp_eq : (Gen.V5 m ρ c main_arg3 : FVec Ideal S64x64 .f32) = arg3 m c := W5_main_arg3 m ρ c

/-! ## The projection's bias row: the reshape 64 → 1×64 of the bias vector, written before region 0 -/

theorem W5_to_W3_main_v40 : W5 m ρ c (Proc.devRef .tc main_v40) = W3 m ρ c (Proc.devRef .tc main_v40) :=
  calc W5 m ρ c (Proc.devRef .tc main_v40)
    _ = W4 m ρ c (Proc.devRef .tc main_v40) := StableHlo.after_of_forall_not_mem (b := Proc.devRef .tc main_v40) _ _ (List.forall_iff_forall_mem.mp (by
      simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_v40) := W4_of_ne m ρ c main_v40 (by decide)

theorem W3_main_v40 : (W3 m ρ c (Proc.devRef .tc main_v40) : FVec Ideal S1x64 .f32)
    = shapeCast S1x64 (arg4 m c) shapeCasts_S64_S1x64 := by
  show StableHlo.after hostOps0_2 (W2 m ρ c) (Proc.devRef .tc main_v40) = _
  after_results
  rfl

theorem bp_at (f : Fin 64) : (Gen.V5 m ρ c main_v40 : FVec Ideal S1x64 .f32) (ix2 0 f) = arg4 m c (ix1 f) := by
  show W5 m ρ c (Proc.devRef .tc main_v40) (ix2 0 f) = _
  rw [W5_to_W3_main_v40, W3_main_v40]
  exact shapeCast_apply (arg4 m c) shapeCasts_S64_S1x64 (ix2 0 f) (ix1 f)
    (by rewrite [Shape.rowMajor_val_two, Shape.rowMajor_val_one]; show f.val = 0 * 64 + f.val; omega)

/-! ## The accumulator's start: the zero word broadcast to 50000×64 -/

theorem zeros_eq : (Gen.V5 m ρ c main_v42 : FVec Ideal S50000x64 .f32) = Cert.ReferenceIdeal.Read.val_main_v60 (F := Ideal) := by
  show StableHlo.after hostOps1 (W4 m ρ c) (Proc.devRef .tc main_v42) = _
  after_results
  rfl

/-! ## The aggregate: the scatter-add of region 0's output rows into the zero array, by the index column -/

theorem aggr_eq : (Gen.V5 m ρ c main_v44 : FVec Ideal S50000x64 .f32)
    = Ideal.hostScatterAdd Cert.KernelIdeal.scatter_S50000x64_S802816x1_S802816x64_1_0_0_1
        (Gen.V5 m ρ c main_v42 : FVec Ideal S50000x64 .f32) (Gen.V5 m ρ c main_v43 : IVec S802816x1 32)
        ((Gen.dat0 (F := Ideal) (Gen.V3 m ρ) c).arrAt 11 cfg0.N) := by
  rw [← W4_arr m ρ c 11]
  show StableHlo.after hostOps1 (W4 m ρ c) (Proc.devRef .tc main_v44)
    = Ideal.hostScatterAdd Cert.KernelIdeal.scatter_S50000x64_S802816x1_S802816x64_1_0_0_1
        (StableHlo.after hostOps1 (W4 m ρ c) (Proc.devRef .tc main_v42))
        (StableHlo.after hostOps1 (W4 m ρ c) (Proc.devRef .tc main_v43))
        (W4 m ρ c (Proc.devRef .tc main_v41))
  after_results
  rfl

/-! ## The index column: the target index row, padded with zeros to 802816 and made a column

The padded row was written before region 0 (the concatenation of the target index row, itself the second row of
the edge index sliced and reshaped, with 2816 zeros); region 0 leaves it alone, and the column is its
broadcast along a new unit axis. -/

theorem V5_main_v43 : (Gen.V5 m ρ c main_v43 : IVec S802816x1 32)
    = broadcastInDim S802816x1 ![0] bcast_S802816_S802816x1_0
        (concatenate S802816 0 [⟨S800000, Cert.ReferenceIdeal.Read.val_main_v3 (F := Ideal) (arg1 m c)⟩,
          ⟨S2816, broadcastInDim S2816 ![] bcast_S_S2816 (constantI S_ 32 0#32)⟩] concatenates_S800000_S2816_S802816_d0) := by
  show StableHlo.after hostOps1 (W4 m ρ c) (Proc.devRef .tc main_v43) = _
  after_results
  rw [W4_of_ne m ρ c main_v32 (by decide)]
  show broadcastInDim S802816x1 ![0] bcast_S802816_S802816x1_0 (StableHlo.after hostOps0_2 (W2 m ρ c) (Proc.devRef .tc main_v32)) = _
  after_results
  rfl

theorem index_row (e : Fin 800000) :
    (Gen.V5 m ρ c main_v43 : IVec S802816x1 32) (ix2 (Fin.castLE (by norm_num) e) 0)
      = Cert.ReferenceIdeal.Read.val_main_v61 (F := Ideal) (arg1 m c) (ix2 e 0) := by
  rw [V5_main_v43, Cert.ReferenceIdeal.Read.val_main_v61_apply]
  refine (broadcastInDim_apply _ bcast_S802816_S802816x1_0 _ (ix2 (Fin.castLE (by norm_num) e) 0)
    (ix1 (Fin.castLE (by norm_num) e)) (fun a => match a with
      | ⟨0, _⟩ => by show e.val = if (802816 : Nat) = 1 then 0 else e.val; rw [if_neg (by decide)])).trans ?_
  refine (concatenate_pair_apply_left 0 _ _ concatenates_S800000_S2816_S802816_d0 (ix1 (Fin.castLE (by norm_num) e)) rfl (ix1 e)
    (fun b => match b with | ⟨0, _⟩ => rfl)).trans ?_
  exact congrArg _ (funext fun a => match a with | ⟨0, _⟩ => rfl)

end Cert.KernelIdeal.HostMiddle
-- ==== Proof.ScatterPad.lean ====
import Idealize.ShloMosaic.PureOps.Ideal
import Idealize.ShloMosaic.PureOps.Ideal.Laws
import Idealize.ShloMosaic.Lib.ValueIdx
import Mathlib.Algebra.BigOperators.Group.Finset.Basic
import Mathlib.Data.Fin.SuccPred

/-!
# A row scatter-add with trailing zero update rows

A scatter-add of `n` update rows of 64 entries into a 50000 × 64 array, row `e` of the updates going to the
row named by the `e`-th index word. Appending update rows that are zero (with whatever index words) does not
change the result: such a row adds zero wherever it lands, and lands nowhere when its index word is out of range.

The landing index of the update entry `(p, q)` is read off the dimension numbers: on operand axis 0 the window
starts at the signed value of index word `p` and has coordinate 0; on axis 1 it starts at 0 and has
coordinate `q`. So the landing index of `(p, q)` depends only on index word `p` and on `q`, and the sum over
the long update table restricted to its first 800000 rows is, term by term, the sum over the short one.
-/

open Idealize.ShloMosaic
open Idealize.ShloMosaic.ValueIdx
open scoped BigOperators

namespace Cert.ScatterRows

/-- The dimension numbers of the row scatter: update axis 1 is the window axis, operand axis 0 is inserted and
    is the axis the index word addresses, the index vector sits on axis 1 of the indices. -/
abbrev dims (n : ℕ) (wf : ScatterDims.WF ⟨2, ![50000, 64]⟩ ⟨2, ![n, 1]⟩ ⟨2, ![n, 64]⟩ [1] [0] [0] 1) :
    ScatterDims ⟨2, ![50000, 64]⟩ ⟨2, ![n, 1]⟩ ⟨2, ![n, 64]⟩ := ⟨[1], [0], [0], 1, wf⟩

section Landing

variable {n : ℕ} (wf : ScatterDims.WF ⟨2, ![50000, 64]⟩ ⟨2, ![n, 1]⟩ ⟨2, ![n, 64]⟩ [1] [0] [0] 1)

/-- The update entry `(p, q)` reads its one start component at index word `p`. -/
theorem siIdx_eq (p : Fin n) (q : Fin 64) (c : Fin (dims n wf).scatterDimsToOperandDims.length) :
    (dims n wf).siIdx (ix2 p q) c = ix2 p 0 := by
  funext b
  match b with
  | ⟨0, _⟩ => rfl
  | ⟨1, _⟩ =>
    have : c.val = 0 := by have h : c.val < [(0 : Fin 2)].length := c.isLt; simpa using h
    apply Fin.ext
    simp [ScatterDims.siIdx, this]

/-- On operand axis 0 the window starts at the signed value of index word `p`. -/
theorem start0 {w : ℕ} (p : Fin n) (q : Fin 64) (idx : IVec ⟨2, ![n, 1]⟩ w) :
    (dims n wf).start (ix2 p q) idx 0 = (idx (ix2 p 0)).toInt := by
  unfold ScatterDims.start
  rw [dif_pos (show (0 : Fin 2) ∈ [(0 : Fin 2)] by decide)]
  rw [siIdx_eq]

/-- On operand axis 1 the window starts at 0. -/
theorem start1 {w : ℕ} (p : Fin n) (q : Fin 64) (idx : IVec ⟨2, ![n, 1]⟩ w) :
    (dims n wf).start (ix2 p q) idx 1 = 0 := by
  unfold ScatterDims.start
  rw [dif_neg (show (1 : Fin 2) ∉ [(0 : Fin 2)] by decide)]

/-- Operand axis 0 is inserted: its window coordinate is 0. -/
theorem window0 (p : Fin n) (q : Fin 64) :
    (dims n wf).window (ix2 p q) 0 = 0 := by
  unfold ScatterDims.window
  rw [dif_neg (show (0 : Fin 2) ∉ (⟨2, ![50000, 64]⟩ : Shape).kept [0] by decide)]

/-- Operand axis 1 carries the update's window axis: its window coordinate is `q`. -/
theorem window1 (p : Fin n) (q : Fin 64) :
    (dims n wf).window (ix2 p q) 1 = q.val := by
  unfold ScatterDims.window
  rw [dif_pos (show (1 : Fin 2) ∈ (⟨2, ![50000, 64]⟩ : Shape).kept [0] by decide)]
  rfl

end Landing

/-- The landing index depends only on the window starts and the window coordinates: two scatters into the same
    operand shape whose starts and window coordinates agree on every axis land at the same index (or both
    outside the operand). -/
theorem resultIdx?_congr {s si su si' su' : Shape} (d : ScatterDims s si su) (d' : ScatterDims s si' su') {w w' : ℕ}
    (j : su.Idx) (idx : IVec si w) (j' : su'.Idx) (idx' : IVec si' w')
    (hs : ∀ a, d.start j idx a = d'.start j' idx' a) (hw : ∀ a, d.window j a = d'.window j' a) :
    d.resultIdx? j idx = d'.resultIdx? j' idx' := by
  unfold ScatterDims.resultIdx?
  by_cases h : ∀ a, 0 ≤ d.start j idx a + d.window j a ∧ d.start j idx a + d.window j a < s.size a
  · have h' : ∀ a, 0 ≤ d'.start j' idx' a + d'.window j' a ∧ d'.start j' idx' a + d'.window j' a < s.size a :=
      fun a => by rw [← hs a, ← hw a]; exact h a
    rw [dif_pos h, dif_pos h']
    refine congrArg some (funext fun a => Fin.ext ?_)
    show (d.start j idx a + d.window j a).toNat = (d'.start j' idx' a + d'.window j' a).toNat
    rw [hs a, hw a]
  · have h' : ¬ ∀ a, 0 ≤ d'.start j' idx' a + d'.window j' a ∧ d'.start j' idx' a + d'.window j' a < s.size a :=
      fun h' => h fun a => by rw [hs a, hw a]; exact h' a
    rw [dif_neg h, dif_neg h']

/-- Scattering 802816 update rows whose first 800000 rows (index words and entries) are those of a table of
    800000 rows, and whose remaining rows are zero, gives the same array as scattering the 800000 rows. -/
theorem scatter_padded (wfK : ScatterDims.WF ⟨2, ![50000, 64]⟩ ⟨2, ![802816, 1]⟩ ⟨2, ![802816, 64]⟩ [1] [0] [0] 1)
    (wfR : ScatterDims.WF ⟨2, ![50000, 64]⟩ ⟨2, ![800000, 1]⟩ ⟨2, ![800000, 64]⟩ [1] [0] [0] 1)
    (x : (⟨2, ![50000, 64]⟩ : Shape).Idx → EReal) (idxK : IVec ⟨2, ![802816, 1]⟩ 32) (idxR : IVec ⟨2, ![800000, 1]⟩ 32)
    (updK : (⟨2, ![802816, 64]⟩ : Shape).Idx → EReal) (updR : (⟨2, ![800000, 64]⟩ : Shape).Idx → EReal)
    (hidx : ∀ e : Fin 800000, idxK (ValueIdx.ix2 (Fin.castLE (by norm_num) e) 0) = idxR (ValueIdx.ix2 e 0))
    (hupd : ∀ (e : Fin 800000) (f : Fin 64), updK (ValueIdx.ix2 (Fin.castLE (by norm_num) e) f) = updR (ValueIdx.ix2 e f))
    (hpad : ∀ (e : Fin 802816) (f : Fin 64), 800000 ≤ e.val → updK (ValueIdx.ix2 e f) = 0) :
    Ideal.hostScatterAdd (dims 802816 wfK) x idxK updK = Ideal.hostScatterAdd (dims 800000 wfR) x idxR updR := by
  have hle : 800000 ≤ 802816 := by norm_num
  -- entry (p, q) of the short table and entry (p, q) of the long one land at the same index
  have hland : ∀ (p : Fin 800000) (q : Fin 64),
      (dims 802816 wfK).resultIdx? (ix2 (Fin.castLE hle p) q) idxK = (dims 800000 wfR).resultIdx? (ix2 p q) idxR := by
    intro p q
    apply resultIdx?_congr
    · intro a
      match a with
      | ⟨0, _⟩ => exact (start0 wfK _ q idxK).trans ((congrArg BitVec.toInt (hidx p)).trans (start0 wfR p q idxR).symm)
      | ⟨1, _⟩ => exact (start1 wfK _ q idxK).trans (start1 wfR p q idxR).symm
    · intro a
      match a with
      | ⟨0, _⟩ => exact (window0 wfK _ q).trans (window0 wfR p q).symm
      | ⟨1, _⟩ => exact (window1 wfK _ q).trans (window1 wfR p q).symm
  funext i
  unfold Ideal.hostScatterAdd
  refine congrArg (fun t => x i + t) ?_
  -- both sums over all update entries, an entry that does not land at `i` counting 0
  rw [Finset.sum_filter, Finset.sum_filter]
  symm
  -- the short table's entries embed in the long one's, (p, q) ↦ (p, q); what is outside the image is zero
  refine Finset.sum_of_injOn
    (fun j : (⟨2, ![800000, 64]⟩ : Shape).Idx => ix2 (Fin.castLE hle (j 0 : Fin 800000)) (j 1 : Fin 64)) ?_ ?_ ?_ ?_
  · intro j _ j' _ h
    have h0 : Fin.castLE hle (j 0 : Fin 800000) = Fin.castLE hle (j' 0 : Fin 800000) := congrFun h 0
    have h1 : (j 1 : Fin 64) = j' 1 := congrFun h 1
    funext a
    match a with
    | ⟨0, _⟩ => exact Fin.castLE_injective hle h0
    | ⟨1, _⟩ => exact h1
  · intro j _; exact Finset.mem_coe.2 (Finset.mem_univ _)
  · intro k _ hk
    obtain ⟨p, q, rfl⟩ : ∃ (p : Fin 802816) (q : Fin 64), k = ix2 p q := ⟨k 0, k 1, eq_ix2 k⟩
    by_cases hp : p.val < 800000
    · exact absurd ⟨ix2 ⟨p.val, hp⟩ q, Finset.mem_coe.2 (Finset.mem_univ _), rfl⟩ hk
    · rw [hpad p q (by omega)]; exact ite_self _
  · intro j _
    obtain ⟨p, q, rfl⟩ : ∃ (p : Fin 800000) (q : Fin 64), j = ix2 p q := ⟨j 0, j 1, eq_ix2 j⟩
    show (if _ then _ else 0) = if (dims 802816 wfK).resultIdx? (ix2 (Fin.castLE hle p) q) idxK = some i
      then updK (ix2 (Fin.castLE hle p) q) else 0
    rw [hland p q, hupd p q]

end Cert.ScatterRows
-- ==== Proof.Bridge.lean ====
/-
  The two programs meet.

  The kernel's result is its second region's output array: row n of the node features against the projection
  matrix, plus the bias, plus row n of the aggregated messages. The aggregated messages are the host's
  scatter-add of the first region's output rows — row e of it the message of edge e for e below 800000, and
  zero for the 2816 padding rows, whose distance lies outside the cutoff radius — into the rows the target
  indices name, the padding rows going to row 0. Adding zeros changes no sum, so this is the reference's
  scatter-add of its 800000 messages; and edge by edge the two messages are one function of the same gathered
  feature row, the same distance and the same weights.
-/
import proofs.«109811_j72164040507424_1_alg».proof.Proof.KernelRun
import proofs.«109811_j72164040507424_1_alg».proof.Proof.Region0
import proofs.«109811_j72164040507424_1_alg».proof.Proof.Region1
import proofs.«109811_j72164040507424_1_alg».proof.Proof.RefSpec
import proofs.«109811_j72164040507424_1_alg».proof.Proof.HostEntry
import proofs.«109811_j72164040507424_1_alg».proof.Proof.HostMiddle
import proofs.«109811_j72164040507424_1_alg».proof.Proof.ScatterPad

noncomputable section

namespace Cert.Bridge

open Idealize.ShloMosaic Idealize.ShloMosaic.TcCoe Idealize.SL.Sem
open Idealize.ShloMosaic.ValueIdx
open Cert.KernelIdeal Cert.KernelIdeal.Gen

variable (m : (ℓ : Loc nD τ sig) → Buf (Elt Ideal) ℓ) (ρ : Dev nD → PrngReg) (c : Dev nD)

open Cert.KernelIdeal.HostEntry (arg0 arg1 arg2 arg3 arg4 arg5 arg6 arg7 arg8 arg9 arg10 arg11 arg12)

/-- The weights the first region finds in its windows are the reference's: the slices of the first layer's
    matrix and the biases as rows. -/
theorem params_eq : Cert.KernelIdeal.Edge.params (Gen.V3 m ρ) c
    = Cert.ReferenceIdeal.RefSpec.params (arg5 m c) (arg6 m c) (arg7 m c) (arg8 m c) (arg9 m c) (arg10 m c) (arg11 m c) (arg12 m c) := by
  unfold Cert.KernelIdeal.Edge.params Cert.ReferenceIdeal.RefSpec.params
  rw [Cert.EdgeNet.Params.mk.injEq]
  refine ⟨funext fun j => ?_, funext fun j => ?_, funext fun j => funext fun k => ?_, funext fun k => ?_,
    funext fun k => funext fun f => ?_, funext fun k => funext fun f => ?_, funext fun f => ?_,
    funext fun k => funext fun f => ?_, funext fun f => ?_⟩
  · exact congrFun (Cert.KernelIdeal.HostEntry.wr1_eq m ρ c) (ix2 0 j)
  · exact Cert.KernelIdeal.HostEntry.br1_at m ρ c j
  · exact congrFun (Cert.KernelIdeal.HostEntry.wr2_eq m ρ c) (ix2 j k)
  · exact Cert.KernelIdeal.HostEntry.br2_at m ρ c k
  · exact Cert.KernelIdeal.HostEntry.w1a_at m ρ c k f
  · exact Cert.KernelIdeal.HostEntry.w1b_at m ρ c k f
  · exact Cert.KernelIdeal.HostEntry.b1_at m ρ c f
  · exact congrFun (Cert.KernelIdeal.HostEntry.w2_eq m ρ c) (ix2 k f)
  · exact Cert.KernelIdeal.HostEntry.b2_at m ρ c f

/-- Below row 800000 the first region's output row is the reference's message of that edge. -/
theorem message_row (e : Fin 800000) (f : Fin 64) :
    Cert.KernelIdeal.Edge.messages (Gen.V3 m ρ) c (ix2 (Fin.castLE (by norm_num) e) f)
      = Cert.ReferenceIdeal.Read.val_main_v59 (F := Ideal) (arg0 m c) (arg1 m c) (arg2 m c) (arg5 m c) (arg6 m c) (arg7 m c) (arg8 m c) (arg9 m c) (arg10 m c) (arg11 m c) (arg12 m c) (ix2 e f) := by
  rw [Cert.ReferenceIdeal.RefSpec.message_apply]
  show Cert.EdgeNet.ef (Cert.KernelIdeal.Edge.params (Gen.V3 m ρ) c)
      (fun k => Cert.KernelIdeal.Edge.feats (Gen.V3 m ρ) c (ix2 (Fin.castLE (by norm_num) e) k))
      (Cert.KernelIdeal.Edge.dist (Gen.V3 m ρ) c (ix2 (Fin.castLE (by norm_num) e) 0)) f = _
  have hd : Cert.KernelIdeal.Edge.dist (Gen.V3 m ρ) c (ix2 (Fin.castLE (by norm_num) e) 0)
      = Cert.ReferenceIdeal.Read.val_main_v19 (F := Ideal) (arg1 m c) (arg2 m c) (ix2 e 0) :=
    Cert.KernelIdeal.HostEntry.dist_row m ρ c e
  have hf : (fun k => Cert.KernelIdeal.Edge.feats (Gen.V3 m ρ) c (ix2 (Fin.castLE (by norm_num) e) k))
      = (fun k => Cert.ReferenceIdeal.Read.val_main_v39 (F := Ideal) (arg0 m c) (arg1 m c) (ix2 e k)) :=
    funext fun k => Cert.KernelIdeal.HostEntry.feats_row m ρ c e k
  rw [params_eq, hd, hf]

/-- From row 800000 on the first region's output is zero: a padding row's distance is outside the radius. -/
theorem message_pad (e : Fin 802816) (f : Fin 64) (h : 800000 ≤ e.val) :
    Cert.KernelIdeal.Edge.messages (Gen.V3 m ρ) c (ix2 e f) = 0 := by
  show Cert.EdgeNet.ef (Cert.KernelIdeal.Edge.params (Gen.V3 m ρ) c)
      (fun k => Cert.KernelIdeal.Edge.feats (Gen.V3 m ρ) c (ix2 e k))
      (Cert.KernelIdeal.Edge.dist (Gen.V3 m ρ) c (ix2 e 0)) f = 0
  have hd : Cert.KernelIdeal.Edge.dist (Gen.V3 m ρ) c (ix2 e 0) = Cert.EdgeNet.far :=
    Cert.KernelIdeal.HostEntry.dist_pad m ρ c e h
  rw [hd]
  exact Cert.EdgeNet.ef_far _ _ _

/-- The host's scatter-add at the ideal values is the exact sum of the updates landing on each entry. -/
theorem scatterAdd_ideal {s si su : Shape} {w : Nat} (d : ScatterDims s si su) (x : FVec Ideal s .f32) (idx : IVec si w)
    (upd : FVec Ideal su .f32) : Host.scatterAdd d x idx upd = Ideal.hostScatterAdd d x idx upd := rfl

/-- The aggregated messages the second region finds are the reference's: the 2816 zero rows add nothing. -/
theorem aggregated :
    (Gen.V5 m ρ c main_v44 : FVec Ideal S50000x64 .f32)
      = Cert.ReferenceIdeal.Read.val_main_v62 (F := Ideal) (arg0 m c) (arg1 m c) (arg2 m c) (arg5 m c) (arg6 m c) (arg7 m c) (arg8 m c) (arg9 m c) (arg10 m c) (arg11 m c) (arg12 m c) := by
  rw [Cert.KernelIdeal.HostMiddle.aggr_eq m ρ c, Cert.KernelIdeal.HostMiddle.zeros_eq m ρ c,
    Cert.KernelIdeal.Edge.region0_value (Gen.V3 m ρ) c]
  unfold Cert.ReferenceIdeal.Read.val_main_v62
  rw [scatterAdd_ideal]
  have hK : Cert.KernelIdeal.scatter_S50000x64_S802816x1_S802816x64_1_0_0_1
      = Cert.ScatterRows.dims 802816 Cert.KernelIdeal.scatter_S50000x64_S802816x1_S802816x64_1_0_0_1.wf := rfl
  have hR : Cert.ReferenceIdeal.scatter_S50000x64_S800000x1_S800000x64_1_0_0_1
      = Cert.ScatterRows.dims 800000 Cert.ReferenceIdeal.scatter_S50000x64_S800000x1_S800000x64_1_0_0_1.wf := rfl
  rw [hK, hR]
  exact Cert.ScatterRows.scatter_padded _ _ (Cert.ReferenceIdeal.Read.val_main_v60 (F := Ideal))
    (Gen.V5 m ρ c main_v43) (Cert.ReferenceIdeal.Read.val_main_v61 (F := Ideal) (arg1 m c))
    (Cert.KernelIdeal.Edge.messages (Gen.V3 m ρ) c)
    (Cert.ReferenceIdeal.Read.val_main_v59 (F := Ideal) (arg0 m c) (arg1 m c) (arg2 m c) (arg5 m c) (arg6 m c) (arg7 m c) (arg8 m c) (arg9 m c) (arg10 m c) (arg11 m c) (arg12 m c))
    (fun e => Cert.KernelIdeal.HostMiddle.index_row m ρ c e)
    (fun e f => message_row m ρ c e f)
    (fun e f h => message_pad m ρ c e f h)

/-- The second region's output array, as the fold of the program's segments leaves it, is the projection of the
    node features plus the bias plus the aggregated messages. -/
theorem result_projected :
    (Gen.W6 m ρ c (Proc.devRef .tc main_v45) : FVec Ideal S50000x64 .f32) = Cert.KernelIdeal.Proj.projected (Gen.V5 m ρ) c :=
  (Gen.W6_arr m ρ c 4).trans (Cert.KernelIdeal.Proj.region1_value (Gen.V5 m ρ) c)

/-- The kernel's result array is the reference's result, as one function of the launch arrays. -/
theorem kernel_result :
    (Gen.W6 m ρ c (Proc.devRef .tc main_v45) : FVec Ideal S50000x64 .f32)
      = Cert.ReferenceIdeal.Read.val_main_v67 (F := Ideal) (arg0 m c) (arg1 m c) (arg2 m c) (arg3 m c) (arg4 m c) (arg5 m c) (arg6 m c) (arg7 m c) (arg8 m c) (arg9 m c) (arg10 m c) (arg11 m c) (arg12 m c) := by
  rw [result_projected]
  funext i
  rw [Cert.ReferenceIdeal.RefSpec.result_apply]
  show ((∑ k : Fin 64, Cert.KernelIdeal.Proj.nodes (Gen.V5 m ρ) c (ix2 (i 0) k) * Cert.KernelIdeal.Proj.wp (Gen.V5 m ρ) c (ix2 k (i 1)))
      + Cert.KernelIdeal.Proj.bp (Gen.V5 m ρ) c (ix2 0 (i 1))) + Cert.KernelIdeal.Proj.aggr (Gen.V5 m ρ) c i = _
  rw [show Cert.KernelIdeal.Proj.nodes (Gen.V5 m ρ) c = arg0 m c from Cert.KernelIdeal.HostMiddle.nodes_eq m ρ c,
    show Cert.KernelIdeal.Proj.wp (Gen.V5 m ρ) c = arg3 m c from Cert.KernelIdeal.HostMiddle.wp_eq m ρ c,
    show Cert.KernelIdeal.Proj.bp (Gen.V5 m ρ) c (ix2 0 (i 1)) = arg4 m c (ix1 (i 1)) from Cert.KernelIdeal.HostMiddle.bp_at m ρ c (i 1),
    show Cert.KernelIdeal.Proj.aggr (Gen.V5 m ρ) c = Cert.ReferenceIdeal.Read.val_main_v62 (F := Ideal) (arg0 m c) (arg1 m c) (arg2 m c) (arg5 m c) (arg6 m c) (arg7 m c) (arg8 m c) (arg9 m c) (arg10 m c) (arg11 m c) (arg12 m c) from aggregated m ρ c]

end Cert.Bridge

end
-- ==== Proof.lean ====
/-
  A message-passing layer over a graph of 50000 nodes and 800000 edges: for each edge, a small network of the
  distance between its end points and of its source node's features makes a 64-vector, scaled by a smooth
  cutoff of the distance; the vectors are summed into their target nodes and added to a linear projection of
  the node features.

  The kernel pads the edge rows to 802816 = 196 · 4096 (features 0, distance 10⁹, target 0), computes the
  per-edge vectors in a first region block by block, sums them on the host, and projects in a second region.
  At the ideal instance the two programs are one function of the arguments: a padding row's cutoff factor is
  zero, so its vector is zero and adds nothing to node 0; the first layer's 68-term contraction over the
  concatenation of features and radial numbers is the sum of its 64-term and its 4-term part; a contraction
  over one term is a product; `z · logistic z` is `z · (1 / (1 + e^(-z)))`; and a change of float format is
  the identity. None of these needs the inputs finite, so the precondition is used by the frames only.

  The three frames: the two kernels' are the frames their generated modules prove; the reference's is its
  generated run with the result dropped. No operation was rewritten by the idealization, so there is nothing
  to preserve. The value claim: the kernel's run with its result named (the launch theorem over the frame's
  segments), the reference's generated run, and the equation of the two results (Proof/Bridge.lean).
-/
import proofs.«109811_j72164040507424_1_alg».proof.Defs
import proofs.«109811_j72164040507424_1_alg».proof.Proof.Gen.Kernel
import proofs.«109811_j72164040507424_1_alg».proof.Proof.Gen.Kernel.Skeleton
import proofs.«109811_j72164040507424_1_alg».proof.Proof.Gen.Kernel.Launch
import proofs.«109811_j72164040507424_1_alg».proof.Proof.Gen.Kernel.Points
import proofs.«109811_j72164040507424_1_alg».proof.Proof.Gen.Kernel.Frame
import proofs.«109811_j72164040507424_1_alg».proof.Proof.Gen.KernelIdeal
import proofs.«109811_j72164040507424_1_alg».proof.Proof.Gen.KernelIdeal.Skeleton
import proofs.«109811_j72164040507424_1_alg».proof.Proof.Gen.KernelIdeal.Launch
import proofs.«109811_j72164040507424_1_alg».proof.Proof.Gen.KernelIdeal.Points
import proofs.«109811_j72164040507424_1_alg».proof.Proof.Gen.KernelIdeal.Frame
import proofs.«109811_j72164040507424_1_alg».proof.Proof.Gen.ReferenceIdeal
import proofs.«109811_j72164040507424_1_alg».proof.Proof.Gen.Pre_finite_inputs
import proofs.«109811_j72164040507424_1_alg».proof.Proof.Gen.ReferenceIdeal.Run
import proofs.«109811_j72164040507424_1_alg».proof.Proof.Gen.ReferenceIdeal.Read
import proofs.«109811_j72164040507424_1_alg».proof.Proof.Bridge
import Idealize.ShloMosaic.Adequacy
import Idealize.ShloMosaic.Init

noncomputable section

namespace Cert.Proof

open Idealize.ShloMosaic Idealize.SL.Sem

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both programs run, and from memories that agree on the arguments they end at the same result: the
    kernel's second region's output array at the end of its segments, which is the reference's last stage. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Gen.W6 m ρ c (Proc.devRef .tc Cert.KernelIdeal.main_v45),
    Cert.KernelIdeal.Named.run_named (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v67_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2.1, (hagree c).2.2.2.2.2.2.2.2.2.2.1,
    (hagree c).2.2.2.2.2.2.2.2.2.2.2.1, (hagree c).2.2.2.2.2.2.2.2.2.2.2.2]
  exact (Cert.Bridge.kernel_result m ρ c).symm

theorem claim : Cert.Claim :=
  ⟨Cert.Kernel.Gen.facts, Cert.KernelIdeal.Gen.facts, Cert.ReferenceIdeal.Gen.facts, Cert.Pre_finite_inputs.Gen.facts,
    @frame_k Cert.Kernel.Gen.facts Cert.Pre_finite_inputs.Gen.facts,
    @frame_ki Cert.KernelIdeal.Gen.facts Cert.Pre_finite_inputs.Gen.facts,
    @frame_ri Cert.ReferenceIdeal.Gen.facts Cert.Pre_finite_inputs.Gen.facts,
    trivial,
    @algebraic Cert.KernelIdeal.Gen.facts Cert.ReferenceIdeal.Gen.facts Cert.Pre_finite_inputs.Gen.facts⟩

end Cert.Proof

end
